-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S4194304 : Shape := ⟨1, ![4194304]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x5 .f32) (main_arg1 : IVec S4194304 32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 32 := constantI S_ 32 5#32
  let main_v6 : IVec S4194304 32 := broadcastInDim S4194304 ![] bcast_S_S4194304 main_c_1
  let main_v7 : IVec S4194304 1 := cmpi .slt main_arg1 main_v6
  let main_v8 : IVec S4194304 1 := andi main_v5 main_v7
  let main_c_2 : IVec S_ 1 := constantI S_ 1 1#1
  let main_v9 : IVec S_ 1 := (fun x v => Host.reduce IntOp.andi x v reducesTo_S4194304_S_d0 h_S_) main_v8 main_c_2
  let main_v10 : IVec S_ 1 := andi main_v3 main_v9
  main_v10
-- ==== Kernel.lean ====
abbrev S4194304x5 : Shape := ⟨2, ![4194304, 5]⟩
abbrev S4194304 : Shape := ⟨1, ![4194304]⟩
abbrev S5x5 : Shape := ⟨2, ![5, 5]⟩
abbrev S5x4194304 : Shape := ⟨2, ![5, 4194304]⟩
abbrev S1x4194304 : Shape := ⟨2, ![1, 4194304]⟩
abbrev S2x8x128 : Shape := ⟨3, ![2, 8, 128]⟩
abbrev S5x32768 : Shape := ⟨2, ![5, 32768]⟩
abbrev S1x32768 : Shape := ⟨2, ![1, 32768]⟩
abbrev S1x8x128 : Shape := ⟨3, ![1, 8, 128]⟩
abbrev S1x1 : Shape := ⟨2, ![1, 1]⟩
abbrev S32768 : Shape := ⟨1, ![32768]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S4194304x5, .f32⟩
  | .hbm, ⟨1, _⟩ => ⟨S4194304, .i32⟩
  | .hbm, ⟨2, _⟩ => ⟨S5x5, .f32⟩
  | .hbm, ⟨3, _⟩ => ⟨S5x4194304, .f32⟩
  | .hbm, ⟨4, _⟩ => ⟨S1x4194304, .i32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S5x32768, .f32⟩
  | .local _ .vmem, ⟨1, _⟩ => ⟨S5x32768, .f32⟩
  | .local _ .vmem, ⟨2, _⟩ => ⟨S1x32768, .i32⟩
  | .local _ .vmem, ⟨3, _⟩ => ⟨S1x32768, .i32⟩
  | .local _ .vmem, ⟨4, _⟩ => ⟨S5x5, .f32⟩
  | .local _ .vmem, ⟨5, _⟩ => ⟨S1x8x128, .f32⟩
  | .local _ .vmem, ⟨6, _⟩ => ⟨S1x8x128, .f32⟩
  | .local _ .vmem, ⟨7, _⟩ => ⟨S1x1, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v47 : BitVec 1 := Scalar.cmpi .eq arg1 c63_i32
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4194304x5_S5x4194304_1_0 : S4194304x5.Transposes [1, 0] S5x4194304
  shapeCasts_S4194304_S1x4194304 : S4194304.ShapeCasts S1x4194304
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5x32768_S5x32768_0_0 : ∀ a, (![0, 0] : Fin 2 → Nat) a + S5x32768.size a ≤ S5x32768.size a
  h_S5x32768 : 0 < S5x32768.numel
  shapeCasts_S5x32768_S5x32768 : S5x32768.ShapeCasts S5x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  reduces_S5x32768_S32768 : S5x32768.Reduces [0] S32768
  shapeCasts_S32768_S1x32768 : S32768.ShapeCasts S1x32768
  broadcasts_S1x32768_S5x32768 : S1x32768.Broadcasts S5x32768
  iota_S5x32768_d0_w32 : S5x32768.Iotas .tc 32 [0]
  natLt_1_32 : 1 < 32
  inb_S5x5_S5x5_0_0 : ∀ a, (![0, 0] : Fin 2 → Nat) a + S5x5.size a ≤ S5x5.size a
  h_S5x5 : 0 < S5x5.numel
  reduces_S1x32768_S1 : S1x32768.Reduces [1] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S5x5_S5x32768_S5x32768_1_0_0_1_n_n_wf : DotDims.WF S5x5 S5x32768 S5x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x32768.size a ≤ S5x4194304.size a
  hwx0_0 : ∀ i : grid0.Coords, EltTy.bits .f32 = 32 ∨ (Rect.block (s := S5x4194304) S5x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x4194304.size a
  hwx0_1 : ∀ i : grid0.Coords, EltTy.bits .i32 = 32 ∨ (Rect.block (s := S1x4194304) S1x32768.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5.size a ≤ S5x5.size a
  hwx0_2 : ∀ i : grid0.Coords, EltTy.bits .f32 = 32 ∨ (Rect.block (s := S5x5) S5x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S5x5_S5x32768_S5x32768_1_0_0_1_n_n : DotDims S5x5 S5x32768 S5x32768 where
  lhsContracting := [1]
  rhsContracting := [0]
  lhsNonContracting := [0]
  rhsNonContracting := [1]
  lhsBatch := []
  rhsBatch := []
  wf := dot_S5x5_S5x32768_S5x32768_1_0_0_1_n_n_wf

abbrev win0_0 : Pipeline.Window sig grid0 :=
  Pipeline.Window.ofSpec (Memref.whole main_v0) S5x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S5x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4194304x5 : Shape := ⟨2, ![4194304, 5]⟩
abbrev S4194304 : Shape := ⟨1, ![4194304]⟩
abbrev S5x5 : Shape := ⟨2, ![5, 5]⟩
abbrev S_ : Shape := ⟨0, ![]⟩
abbrev S4194304x1 : Shape := ⟨2, ![4194304, 1]⟩
abbrev S1x5 : Shape := ⟨2, ![1, 5]⟩

abbrev nBuf : Space → Nat
  | .hbm => 58
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S4194304, .i32⟩
  | .hbm, ⟨2, _⟩ => ⟨S5x5, .f32⟩
  | .hbm, ⟨3, _⟩ => ⟨S_, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S4194304x1, .f32⟩
  | .hbm, ⟨9, _⟩ => ⟨S4194304x5, .f32⟩
  | .hbm, ⟨10, _⟩ => ⟨S4194304x5, .f32⟩
  | .hbm, ⟨11, _⟩ => ⟨S4194304x5, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x1, .f32⟩
  | .hbm, ⟨16, _⟩ => ⟨S4194304x5, .f32⟩
  | .hbm, ⟨17, _⟩ => ⟨S4194304x5, .f32⟩
  | .hbm, ⟨18, _⟩ => ⟨S4194304x1, .i32⟩
  | .hbm, ⟨19, _⟩ => ⟨S1x5, .i32⟩
  | .hbm, ⟨20, _⟩ => ⟨S4194304x5, .i32⟩
  | .hbm, ⟨21, _⟩ => ⟨S4194304x5, .i32⟩
  | .hbm, ⟨22, _⟩ => ⟨S4194304x5, .i1⟩
  | .hbm, ⟨23, _⟩ => ⟨S4194304x5, .f32⟩
  | .hbm, ⟨24, _⟩ => ⟨S_, .f32⟩
  | .hbm, ⟨25, _⟩ => ⟨S4194304x5, .f32⟩
  | .hbm, ⟨26, _⟩ => ⟨S4194304x5, .f32⟩
  | .hbm, ⟨27, _⟩ => ⟨S_, .f32⟩
  | .hbm, ⟨28, _⟩ => ⟨S4194304x5, .f32⟩
  | .hbm, ⟨29, _⟩ => ⟨S4194304x5, .f32⟩
  | .hbm, ⟨30, _⟩ => ⟨S4194304x5, .f32⟩
  | .hbm, ⟨31, _⟩ => ⟨S_, .f32⟩
  | .hbm, ⟨32, _⟩ => ⟨S4194304, .f32⟩
  | .hbm, ⟨33, _⟩ => ⟨S4194304, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4194304x5, .f32⟩
  | .hbm, ⟨39, _⟩ => ⟨S_, .i32⟩
  | .hbm, ⟨40, _⟩ => ⟨S4194304, .i32⟩
  | .hbm, ⟨41, _⟩ => ⟨S4194304, .i1⟩
  | .hbm, ⟨42, _⟩ => ⟨S_, .i32⟩
  | .hbm, ⟨43, _⟩ => ⟨S4194304, .i32⟩
  | .hbm, ⟨44, _⟩ => ⟨S4194304, .i32⟩
  | .hbm, ⟨45, _⟩ => ⟨S4194304, .i32⟩
  | .hbm, ⟨46, _⟩ => ⟨S4194304x1, .i32⟩
  | .hbm, ⟨47, _⟩ => ⟨S4194304x5, .f32⟩
  | .hbm, ⟨48, _⟩ => ⟨S4194304x5, .f32⟩
  | .hbm, ⟨49, _⟩ => ⟨S_, .f32⟩
  | .hbm, ⟨50, _⟩ => ⟨S4194304, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_2 : Ref sig .tc := ⟨.hbm, 31, rfl⟩
abbrev main_v7 : Ref sig .tc := ⟨.hbm, 32, rfl⟩
abbrev main_v8 : Ref sig .tc := ⟨.hbm, 33, rfl⟩
abbrev main_cst_3 : Ref sig .tc := ⟨.hbm, 34, rfl⟩
abbrev main_v9 : Ref sig .tc := ⟨.hbm, 35, rfl⟩
abbrev main_cst_4 : Ref sig .tc := ⟨.hbm, 36, rfl⟩
abbrev main_v10 : Ref sig .tc := ⟨.hbm, 37, rfl⟩
abbrev main_v11 : Ref sig .tc := ⟨.hbm, 38, rfl⟩
abbrev main_c : Ref sig .tc := ⟨.hbm, 39, rfl⟩
abbrev main_v12 : Ref sig .tc := ⟨.hbm, 40, rfl⟩
abbrev main_v13 : Ref sig .tc := ⟨.hbm, 41, rfl⟩
abbrev main_c_5 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst_6 : Ref sig .tc := ⟨.hbm, 49, rfl⟩
abbrev main_v20 : Ref sig .tc := ⟨.hbm, 50, rfl⟩
abbrev main_cst_7 : Ref sig .tc := ⟨.hbm, 51, rfl⟩
abbrev main_v21 : Ref sig .tc := ⟨.hbm, 52, rfl⟩
abbrev main_cst_8 : Ref sig .tc := ⟨.hbm, 53, rfl⟩
abbrev main_v22 : Ref sig .tc := ⟨.hbm, 54, rfl⟩
abbrev main_cst_9 : Ref sig .tc := ⟨.hbm, 55, rfl⟩
abbrev main_v23 : Ref sig .tc := ⟨.hbm, 56, rfl⟩
abbrev main_v24 : Ref sig .tc := ⟨.hbm, 57, rfl⟩

abbrev nD : Nat := 1
abbrev τ : Topo := Topo.v7x

variable {F : FTy → Type} [FloatOps F]

class Facts₀ : Prop where
  reducesTo_S4194304x5_S4194304_d1 : S4194304x5.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x5_0_1 : S4194304x1.BroadcastsInDim S4194304x5 (![0, 1] : Fin 2 → Fin S4194304x5.rank)
  bcast_S1x5_S4194304x5_0_1 : S1x5.BroadcastsInDim S4194304x5 (![0, 1] : Fin 2 → Fin S4194304x5.rank)
  bcast_S_S4194304x5 : S_.BroadcastsInDim S4194304x5 (![] : Fin 0 → Fin S4194304x5.rank)
  reducesTo_S4194304_S_d0 : S4194304.ReducesTo [0] S_
  gather_S5x5_S4194304x1_S4194304x5_1_0_n_n_0_1_15_wf : GatherDims.WF S5x5 S4194304x1 S4194304x5 [1] [0] [] [0] [] 1 ![1, 5]

variable [Facts₀]

def gather_S5x5_S4194304x1_S4194304x5_1_0_n_n_0_1_15 : GatherDims S5x5 S4194304x1 S4194304x5 where
  offsetDims := [1]
  collapsedSliceDims := [0]
  operandBatchingDims := []
  startIndicesBatchingDims := []
  startIndexMap := [0]
  indexVectorDim := 1
  sliceSizes := ![1, 5]
  wf := gather_S5x5_S4194304x1_S4194304x5_1_0_n_n_0_1_15_wf

class Facts : Prop extends Facts₀ where

variable [Facts]
-- ==== Proof.Spec.lean ====
/-
  The mathematics of the two programs, stated once over the extended reals and importing neither program.

  A row of the input is five logits `x` and a class label `t`. Both programs form the log-softmax
  `logp x j = (x j - max x) - log (∑ₖ exp (x k - max x))`, the smoothed target `hot t j · 7/8 + c` (with `c` the float
  nearest 1/40), the cross entropy `-(∑ⱼ smoothed j · logp x j)` and the transition penalty
  `∑ⱼ exp (logp x j) · T (t, j)` for a fixed symmetric 5 × 5 table `T`. One program sums `ce + p · penalty` (`p` the
  float nearest 1/10) tile by tile — 2 halves of 64 tiles of 32768 rows — and divides the total by the row count; the
  other divides the sum of the cross entropies and the sum of the penalties separately and combines the quotients.
-/
import Idealize.ShloMosaic.PureOps.Ideal
import Idealize.ShloMosaic.Lib.ValueIdx

open scoped BigOperators

noncomputable section

namespace BloomLoss

open Idealize.ShloMosaic Idealize.ShloMosaic.ValueIdx

/-- The logits: 4194304 rows of 5. -/
abbrev SX : Shape := ⟨2, ![4194304, 5]⟩
/-- The labels: one per row. -/
abbrev ST : Shape := ⟨1, ![4194304]⟩

/-- The transition table's 25 bit patterns, row-major: entry (a, b) is 0, 1/2, 1 or 2 as |a - b| is 0, 1, 2 or more. -/
def tblBits : ℕ → BitVec 32
  | 0 => 0x00000000#32 | 1 => 0x3F000000#32 | 2 => 0x3F800000#32 | 3 => 0x40000000#32 | 4 => 0x40000000#32
  | 5 => 0x3F000000#32 | 6 => 0x00000000#32 | 7 => 0x3F000000#32 | 8 => 0x3F800000#32 | 9 => 0x40000000#32
  | 10 => 0x3F800000#32 | 11 => 0x3F000000#32 | 12 => 0x00000000#32 | 13 => 0x3F000000#32 | 14 => 0x3F800000#32
  | 15 => 0x40000000#32 | 16 => 0x3F800000#32 | 17 => 0x3F000000#32 | 18 => 0x00000000#32 | 19 => 0x3F000000#32
  | 20 => 0x40000000#32 | 21 => 0x40000000#32 | 22 => 0x3F800000#32 | 23 => 0x3F000000#32 | 24 => 0x00000000#32
  | _ => 0#32

/-- The table's entry (a, b) as an extended real. -/
def tbl (a b : ℕ) : EReal := Ideal.ofBits .f32 (tblBits (5 * a + b))

/-- The table is symmetric. -/
theorem tblBits_symm : ∀ a b : Fin 5, tblBits (5 * a.val + b.val) = tblBits (5 * b.val + a.val) := by decide

theorem tbl_symm (a b : Fin 5) : tbl a.val b.val = tbl b.val a.val := by
  unfold tbl; rw [tblBits_symm a b]

/-- 7/8, the weight of the hot class. -/
abbrev c875 : EReal := Ideal.ofBits .f32 0x3F600000#32
/-- The float nearest 1/40, the smoothing floor. -/
abbrev c025 : EReal := Ideal.ofBits .f32 0x3CCCCCCD#32
/-- The float nearest 1/10, the penalty's weight. -/
abbrev c01 : EReal := Ideal.ofBits .f32 0x3DCCCCCD#32
/-- The row count 4194304 = 2 ^ 22. -/
abbrev cB : EReal := Ideal.ofBits .f32 0x4A800000#32

/-! ## One row -/

section Row
variable (x : Fin 5 → EReal) (t : BitVec 32)

/-- The largest logit of the row. -/
def rowMax : EReal := (Finset.univ : Finset (Fin 5)).fold max ⊥ x
/-- The logit less the row's maximum. -/
def shifted (j : Fin 5) : EReal := x j - rowMax x
/-- The logarithm of the sum of the exponentials of the shifted logits. -/
def lse : EReal := Ideal.log (∑ k : Fin 5, Ideal.exp (shifted x k))
/-- The log-softmax. -/
def logp (j : Fin 5) : EReal := shifted x j - lse x
/-- The one-hot encoding of the label: 1 at class `t`, 0 elsewhere (all 0 when `t` names no class). -/
def hot (j : Fin 5) : EReal := if t = BitVec.ofNat 32 j.val then 1 else 0
/-- The smoothed target times the log-softmax, summed over the classes (the cross entropy is its negative). -/
def ceSum : EReal := ∑ j : Fin 5, (hot t j * c875 + c025) * logp x j
/-- The transition penalty: the softmax against row `t` of the table. -/
def penSum : EReal := ∑ j : Fin 5, Ideal.exp (logp x j) * tbl t.toNat j.val
/-- The row's loss as the tiled program forms it. -/
def rowLoss : EReal := (0 - ceSum x t) + c01 * penSum x t

end Row

/-! ## The arrays' rows -/

/-- Row `i` of the logits. -/
def rowX (X : SX.Idx → EReal) (i : Fin 4194304) : Fin 5 → EReal := fun j => X (ix2 i j)
/-- Row `i`'s label. -/
def rowT (Tg : ST.Idx → BitVec 32) (i : Fin 4194304) : BitVec 32 := Tg (ix1 i)
/-- The same by a natural number (zero logits past the last row: never read). -/
def rowXn (X : SX.Idx → EReal) (i : ℕ) : Fin 5 → EReal := fun j => if h : i < 4194304 then X (ix2 ⟨i, h⟩ j) else 0
/-- The same by a natural number (label 0 past the last row: never read). -/
def rowTn (Tg : ST.Idx → BitVec 32) (i : ℕ) : BitVec 32 := if h : i < 4194304 then Tg (ix1 ⟨i, h⟩) else 0#32

theorem rowXn_val (X : SX.Idx → EReal) (i : Fin 4194304) : rowXn X i.val = rowX X i := by
  funext j; unfold rowXn rowX; rw [dif_pos i.isLt]
theorem rowTn_val (Tg : ST.Idx → BitVec 32) (i : Fin 4194304) : rowTn Tg i.val = rowT Tg i := by
  unfold rowTn rowT; rw [dif_pos i.isLt]

/-! ## The two totals -/

/-- Tile `n` (rows `32768 n … 32768 n + 32767`): the sum of its rows' losses. -/
def tileSum (X : SX.Idx → EReal) (Tg : ST.Idx → BitVec 32) (n : ℕ) : EReal :=
  ∑ l : Fin 32768, rowLoss (rowXn X (n * 32768 + l.val)) (rowTn Tg (n * 32768 + l.val))

/-- What half `q` (tiles `64 q … 64 q + 63`) accumulates from zero. -/
def halfSum (X : SX.Idx → EReal) (Tg : ST.Idx → BitVec 32) (q : ℕ) : EReal :=
  0 + ∑ s ∈ Finset.range 64, tileSum X Tg (64 * q + s)

/-- The tiled program's result: the two halves added from zero, over the row count. -/
def kernLoss (X : SX.Idx → EReal) (Tg : ST.Idx → BitVec 32) : EReal :=
  Ideal.div (0 + ∑ q : Fin 2, halfSum X Tg q.val) cB

/-- The plain program's result: mean cross entropy plus the weighted mean penalty. -/
def refLoss (X : SX.Idx → EReal) (Tg : ST.Idx → BitVec 32) : EReal :=
  Ideal.div (0 + ∑ i : Fin 4194304, -(ceSum (rowX X i) (rowT Tg i))) cB
    + c01 * Ideal.div (0 + ∑ i : Fin 4194304, penSum (rowX X i) (rowT Tg i)) cB

end BloomLoss

end
-- ==== Proof.KTile.lean ====
/-
  The tile's arithmetic read at an index, at the extended reals. The body's four pure values: the tile's vector of row
  losses (one per lane, from the tile's five-by-32768 block of logits, its labels and the table), the running cell plus
  the vector's sum over the lanes, the cell spread over the output block, and the zero the cell restarts from.
-/
import proofs.«420542_j25194278159144_2_alg».proof.Proof.Gen.KernelIdeal.Skeleton
import proofs.«420542_j25194278159144_2_alg».proof.Proof.Spec
import Idealize.ShloMosaic.PureOps.Ideal.Laws
import Idealize.ShloMosaic.Lib.ValueIdx
import Idealize.ShloMosaic.Lib.Pipeline.Value
import Idealize.ShloMosaic.Lib.ValueLayout

open scoped BigOperators

noncomputable section

namespace Cert.KernelIdeal.Tile

open Idealize.ShloMosaic Idealize.ShloMosaic.ValueIdx Cert.KernelIdeal Cert.KernelIdeal.Gen BloomLoss

/-! ## The block's column `l` read through the layout operations -/

/-- Inserting the class `k` into lane `l` names entry `(k, l)` of the block. -/
private theorem lift_col (h : S5x32768.Reduces [0] S32768) (l : Fin 32768) (k : Fin 5) :
    h.lift (ix1 l) k = ix2 k l := by
  funext a
  match a with
  | ⟨0, _⟩ => exact Fin.ext rfl
  | ⟨1, _⟩ => exact Fin.ext rfl

/-- The word of minus infinity is the bottom of the extended reals. -/
private theorem ofBits_negInf : Ideal.ofBits .f32 0xFF800000#32 = (⊥ : EReal) := by
  simp [Ideal.ofBits, Ideal.ieee]

/-- The largest entry of a column of the block. -/
private theorem colMax_apply (v : FVec Ideal S5x32768 .f32) (h : S5x32768.Reduces [0] S32768) (hφ : FKind.Formats .f32)
    (hacc : (0xFF800000#32 : BitVec 32) = 0xFF800000#32) (l : Fin 32768) :
    multiReduction .maximumf [0] S32768 v 0xFF800000#32 h hφ hacc (ix1 l) = rowMax (fun j : Fin 5 => v (ix2 j l)) := by
  refine (Ideal.multiReduction_maximumf_single v 0xFF800000#32 h hφ hacc (ix1 l)).trans ?_
  show (Finset.univ : Finset (Fin 5)).fold max (Ideal.ofBits .f32 0xFF800000#32) (fun k : Fin 5 => v (h.lift (ix1 l) k))
    = (Finset.univ : Finset (Fin 5)).fold max ⊥ (fun j : Fin 5 => v (ix2 j l))
  rw [ofBits_negInf]
  exact congrArg (fun f => (Finset.univ : Finset (Fin 5)).fold max ⊥ f) (funext fun k => congrArg v (lift_col h l k))

/-- The sum of a column of the block. -/
private theorem colSum_apply (v : FVec Ideal S5x32768 .f32) (h : S5x32768.Reduces [0] S32768) (hφ : FKind.Formats .f32)
    (hacc : (0x00000000#32 : BitVec 32) = 0x00000000#32) (l : Fin 32768) :
    multiReduction .add [0] S32768 v 0x00000000#32 h hφ hacc (ix1 l) = ∑ j : Fin 5, v (ix2 j l) := by
  refine (Ideal.multiReduction_add_single v 0x00000000#32 h hφ hacc (ix1 l)).trans ?_
  show ∑ k : Fin 5, v (h.lift (ix1 l) k) = ∑ j : Fin 5, v (ix2 j l)
  exact Finset.sum_congr rfl fun k _ => congrArg v (lift_col h l k)

/-- The column sums kept as a one-row block. -/
private theorem keepSum_apply (v : FVec Ideal S5x32768 .f32) (h : S5x32768.Reduces [0] S32768) (hφ : FKind.Formats .f32)
    (hacc : (0x00000000#32 : BitVec 32) = 0x00000000#32) (hs : S32768.ShapeCasts S1x32768) (l : Fin 32768) :
    shapeCast S1x32768 (multiReduction .add [0] S32768 v 0x00000000#32 h hφ hacc) hs (ix2 (0 : Fin 1) l)
      = ∑ j : Fin 5, v (ix2 j l) :=
  (shapeCast_a_1a_apply _ hs 0 l).trans (colSum_apply v h hφ hacc l)

/-- The logit less its column's largest: the column maxima kept as one row and spread back over the five classes. -/
private theorem shift_apply (v : FVec Ideal S5x32768 .f32) (h : S5x32768.Reduces [0] S32768) (hφ : FKind.Formats .f32)
    (hacc : (0xFF800000#32 : BitVec 32) = 0xFF800000#32) (hs : S32768.ShapeCasts S1x32768)
    (hb : S1x32768.Broadcasts S5x32768) (j : Fin 5) (l : Fin 32768) :
    subf v (broadcastTo S5x32768 (shapeCast S1x32768 (multiReduction .maximumf [0] S32768 v 0xFF800000#32 h hφ hacc) hs) hb) (ix2 j l)
      = shifted (fun j : Fin 5 => v (ix2 j l)) j := by
  rw [subf_apply, broadcastTo_1b_ab_apply, shapeCast_a_1a_apply, colMax_apply]
  rfl

/-- The exponential and the logarithm of a block read at an entry. -/
private theorem exp_apply {s : Shape} (a : FVec Ideal s .f32) (i : s.Idx) : exp a i = Ideal.exp (a i) := rfl
private theorem log_apply {s : Shape} (a : FVec Ideal s .f32) (i : s.Idx) : log a i = Ideal.log (a i) := rfl

/-- The shifted logit less the logarithm of its column's sum of exponentials. -/
private theorem logSoftmax_apply (v : FVec Ideal S5x32768 .f32) (h : S5x32768.Reduces [0] S32768) (hφ : FKind.Formats .f32)
    (hacc : (0x00000000#32 : BitVec 32) = 0x00000000#32) (hs : S32768.ShapeCasts S1x32768)
    (hb : S1x32768.Broadcasts S5x32768) (j : Fin 5) (l : Fin 32768) :
    subf v (broadcastTo S5x32768 (log (shapeCast S1x32768 (multiReduction .add [0] S32768 (exp v) 0x00000000#32 h hφ hacc) hs)) hb) (ix2 j l)
      = v (ix2 j l) - Ideal.log (∑ k : Fin 5, Ideal.exp (v (ix2 k l))) := by
  rw [subf_apply, broadcastTo_1b_ab_apply, log_apply, keepSum_apply]
  simp only [exp_apply]

/-- The log-softmax of a column, entry `j`: the column's largest and its sum of exponentials, each kept as one row and spread back, read at once. -/
private theorem logp_apply (v : FVec Ideal S5x32768 .f32) (h : S5x32768.Reduces [0] S32768) (hφ : FKind.Formats .f32)
    (hmax : (0xFF800000#32 : BitVec 32) = 0xFF800000#32) (hadd : (0x00000000#32 : BitVec 32) = 0x00000000#32)
    (hs : S32768.ShapeCasts S1x32768) (hb : S1x32768.Broadcasts S5x32768) (j : Fin 5) (l : Fin 32768) :
    subf (subf v (broadcastTo S5x32768 (shapeCast S1x32768 (multiReduction .maximumf [0] S32768 v 0xFF800000#32 h hφ hmax) hs) hb))
        (broadcastTo S5x32768 (log (shapeCast S1x32768 (multiReduction .add [0] S32768
          (exp (subf v (broadcastTo S5x32768 (shapeCast S1x32768 (multiReduction .maximumf [0] S32768 v 0xFF800000#32 h hφ hmax) hs) hb)))
          0x00000000#32 h hφ hadd) hs)) hb) (ix2 j l)
      = logp (fun j : Fin 5 => v (ix2 j l)) j := by
  rw [logSoftmax_apply, shift_apply]
  unfold logp lse
  refine congrArg (fun s => shifted (fun j : Fin 5 => v (ix2 j l)) j - Ideal.log s) (Finset.sum_congr rfl fun k _ => ?_)
  rw [shift_apply]

/-! ## The one-hot block and the table's product with it -/

/-- A comparison of integer blocks read at an entry. -/
private theorem cmpi_apply {s : Shape} {w : Nat} (p : CmpIPredicate) (a b : IVec s w) (i : s.Idx) :
    cmpi p a b i = IntOp.cmpi p (a i) (b i) := rfl

/-- A word converted to a float is, at the extended reals, the integer it encodes. -/
private theorem sitofp_word (b : BitVec 32) : (FloatOps.sitofp .f32 b : Ideal .f32) = ((b.toInt : ℝ) : EReal) := rfl

/-- Entry `(j, l)` of the one-hot block: the class number `j` compared with lane `l`'s label, widened and converted. -/
private theorem oneHot_apply (x1 : IVec S1x32768 32) (hi : S5x32768.Iotas .tc 32 [0]) (hb : S1x32768.Broadcasts S5x32768)
    (hlt : 1 < 32) (j : Fin 5) (l : Fin 32768) :
    (sitofp .f32 (extui 32 (cmpi .eq (iota .tc S5x32768 32 [0] hi) (broadcastTo S5x32768 x1 hb)) hlt) : FVec Ideal S5x32768 .f32)
        (ix2 j l)
      = hot (x1 (ix2 (0 : Fin 1) l)) j := by
  have e1 : iota .tc S5x32768 32 [0] hi (ix2 j l) = BitVec.ofNat 32 j.val := iota_single_apply .tc S5x32768 32 0 hi (ix2 j l)
  rw [sitofp_apply, extui_apply, cmpi_apply, e1, broadcastTo_1b_ab_apply]
  unfold hot
  by_cases h : x1 (ix2 (0 : Fin 1) l) = BitVec.ofNat 32 j.val
  · have e : IntOp.cmpi .eq (BitVec.ofNat 32 j.val) (x1 (ix2 (0 : Fin 1) l)) = 1#1 := by
      show BitVec.ofBool (BitVec.ofNat 32 j.val == x1 (ix2 (0 : Fin 1) l)) = 1#1
      rw [beq_iff_eq.mpr h.symm]; rfl
    rw [if_pos h, e, sitofp_word, show (BitVec.setWidth 32 1#1).toInt = 1 by decide]
    simp
  · have e : IntOp.cmpi .eq (BitVec.ofNat 32 j.val) (x1 (ix2 (0 : Fin 1) l)) = 0#1 := by
      show BitVec.ofBool (BitVec.ofNat 32 j.val == x1 (ix2 (0 : Fin 1) l)) = 0#1
      rw [beq_eq_false_iff_ne.mpr fun h' => h h'.symm]; rfl
    rw [if_neg h, e, sitofp_word, show (BitVec.setWidth 32 0#1).toInt = 0 by decide]
    simp

/-- The table's product with the one-hot block contracts the table's second axis with the block's first. -/
private theorem tableDot_lhs_0 (j : S5x32768.Idx) (k : dot_S5x5_S5x32768_S5x32768_1_0_0_1_n_n.contr.Idx) :
    (dot_S5x5_S5x32768_S5x32768_1_0_0_1_n_n.lhsIdx j k 0).val = (j 0).val := rfl
private theorem tableDot_lhs_1 (j : S5x32768.Idx) (k : dot_S5x5_S5x32768_S5x32768_1_0_0_1_n_n.contr.Idx) :
    (dot_S5x5_S5x32768_S5x32768_1_0_0_1_n_n.lhsIdx j k 1).val = (k ⟨0, by decide⟩).val :=
  dot_S5x5_S5x32768_S5x32768_1_0_0_1_n_n.lhsIdx_val_of_single rfl j k
private theorem tableDot_rhs_0 (j : S5x32768.Idx) (k : dot_S5x5_S5x32768_S5x32768_1_0_0_1_n_n.contr.Idx) :
    (dot_S5x5_S5x32768_S5x32768_1_0_0_1_n_n.rhsIdx j k 0).val = (k ⟨0, by decide⟩).val :=
  dot_S5x5_S5x32768_S5x32768_1_0_0_1_n_n.rhsIdx_val_of_single rfl j k
private theorem tableDot_rhs_1 (j : S5x32768.Idx) (k : dot_S5x5_S5x32768_S5x32768_1_0_0_1_n_n.contr.Idx) :
    (dot_S5x5_S5x32768_S5x32768_1_0_0_1_n_n.rhsIdx j k 1).val = (j 1).val := rfl

/-- Entry `(j, l)` of the product into the zero block: row `j` of the left factor against column `l` of the right. -/
private theorem tableDot_apply (A : FVec Ideal S5x5 .f32) (R : FVec Ideal S5x32768 .f32) (j : Fin 5) (l : Fin 32768) :
    matmul dot_S5x5_S5x32768_S5x32768_1_0_0_1_n_n none A R (constant (F := Ideal) S5x32768 .f32 0x00000000#32) (ix2 j l)
      = ∑ k : Fin 5, A (ix2 j k) * R (ix2 k l) := by
  refine (Ideal.matmul_constant_zero_apply dot_S5x5_S5x32768_S5x32768_1_0_0_1_n_n none A R (ix2 j l)).trans ?_
  rw [← Equiv.sum_comp (contrEquiv1 dot_S5x5_S5x32768_S5x32768_1_0_0_1_n_n 5 rfl rfl).symm]
  refine Finset.sum_congr rfl fun k _ => ?_
  have hl : dot_S5x5_S5x32768_S5x32768_1_0_0_1_n_n.lhsIdx (ix2 j l)
      ((contrEquiv1 dot_S5x5_S5x32768_S5x32768_1_0_0_1_n_n 5 rfl rfl).symm k) = ix2 j k := by
    funext a
    match a with
    | ⟨0, _⟩ => exact Fin.ext (tableDot_lhs_0 _ _)
    | ⟨1, _⟩ => exact Fin.ext ((tableDot_lhs_1 _ _).trans (contrEquiv1_symm_val _ 5 rfl rfl k))
  have hr : dot_S5x5_S5x32768_S5x32768_1_0_0_1_n_n.rhsIdx (ix2 j l)
      ((contrEquiv1 dot_S5x5_S5x32768_S5x32768_1_0_0_1_n_n 5 rfl rfl).symm k) = ix2 k l := by
    funext a
    match a with
    | ⟨0, _⟩ => exact Fin.ext ((tableDot_rhs_0 _ _).trans (contrEquiv1_symm_val _ 5 rfl rfl k))
    | ⟨1, _⟩ => exact Fin.ext (tableDot_rhs_1 _ _)
  rw [hl, hr]

/-- Against the one-hot column of a label that names a class, row `j` of the table leaves its entry at the label. -/
private theorem tableRow_hot (x2 : FVec Ideal S5x5 .f32) (hT : ∀ a b : Fin 5, x2 (ix2 a b) = tbl a.val b.val)
    (t : BitVec 32) (ht : t.toNat < 5) (j : Fin 5) :
    ∑ k : Fin 5, x2 (ix2 j k) * hot t k = tbl t.toNat j.val := by
  have hk : ∀ k : Fin 5, t = BitVec.ofNat 32 k.val ↔ k = ⟨t.toNat, ht⟩ := by
    intro k
    constructor
    · intro h; apply Fin.ext; show k.val = t.toNat; rw [h, BitVec.toNat_ofNat]
      have := k.isLt; omega
    · intro h; subst h; show t = BitVec.ofNat 32 t.toNat; simp
  rw [Finset.sum_eq_single (⟨t.toNat, ht⟩ : Fin 5)]
  · rw [hT, show hot t ⟨t.toNat, ht⟩ = 1 from if_pos ((hk _).mpr rfl), mul_one]
    exact tbl_symm j ⟨t.toNat, ht⟩
  · intro k _ hne
    rw [show hot t k = 0 from if_neg (fun h => hne ((hk k).mp h)), mul_zero]
  · intro h; exact absurd (Finset.mem_univ _) h

/-! ## The four payloads -/

/-- Lane `l` of the tile's vector is the loss of the row whose logits are column `l` of the block and whose label is
    entry `l` of the labels, given that the third block is the table and that the label names a class. -/
theorem rowLosses_apply (x0 : Vec Ideal S5x32768 .f32) (x1 : Vec Ideal S1x32768 .i32) (x2 : Vec Ideal S5x5 .f32)
    (hT : ∀ a b : Fin 5, x2 (ix2 a b) = tbl a.val b.val) (l : Fin 32768)
    (ht : (x1 (ix2 (0 : Fin 1) l)).toNat < 5) :
    k0_pay4 (F := Ideal) x0 x1 x2 (ix2 (0 : Fin 1) l)
      = rowLoss (fun j : Fin 5 => x0 (ix2 j l)) (x1 (ix2 (0 : Fin 1) l)) := by
  unfold k0_pay4
  simp only [shapeCast_self]
  -- the last two operations at lane `l`: (0 - the kept column sums of the weighted log-softmax) + 1/10 · the kept column
  -- sums of the softmax against the table's product with the one-hot block
  rw [addf_apply, subf_apply, mulf_apply, broadcast_apply, broadcast_apply, keepSum_apply, keepSum_apply]
  unfold rowLoss ceSum penSum
  refine congrArg₂ (· + ·) (congrArg₂ (· - ·) Ideal.ofBits_zero_f32 (Finset.sum_congr rfl fun j _ => ?_))
    (congrArg₂ (· * ·) rfl (Finset.sum_congr rfl fun j _ => ?_))
  · -- class `j`'s term of the cross entropy: the smoothed target times the log-softmax
    rw [mulf_apply, addf_apply, mulf_apply, broadcast_apply, broadcast_apply, oneHot_apply, logp_apply]
    rfl
  · -- class `j`'s term of the penalty: the softmax times the table's entry at (label, j)
    rw [mulf_apply, exp_apply, tableDot_apply, logp_apply]
    refine congrArg (Ideal.exp (logp (fun j : Fin 5 => x0 (ix2 j l)) j) * ·) ?_
    exact (Finset.sum_congr rfl fun k _ => by rw [oneHot_apply]).trans (tableRow_hot x2 hT _ ht j)

/-- Inserting the lane `l` into the one kept entry names entry `(0, l)` of the tile's vector. -/
private theorem lift_lane (h : S1x32768.Reduces [1] S1) (u : Fin 1) (l : Fin 32768) :
    h.lift (ix1 u) l = ix2 (0 : Fin 1) l := by
  funext a
  match a with
  | ⟨0, _⟩ => exact Fin.ext (Nat.lt_one_iff.mp u.isLt)
  | ⟨1, _⟩ => exact Fin.ext rfl

/-- The sum of the tile's vector over its lanes. -/
private theorem laneSum_apply (v : FVec Ideal S1x32768 .f32) (h : S1x32768.Reduces [1] S1) (hφ : FKind.Formats .f32)
    (hacc : (0x00000000#32 : BitVec 32) = 0x00000000#32) (u : Fin 1) :
    multiReduction .add [1] S1 v 0x00000000#32 h hφ hacc (ix1 u) = ∑ l : Fin 32768, v (ix2 (0 : Fin 1) l) := by
  refine (Ideal.multiReduction_add_single v 0x00000000#32 h hφ hacc (ix1 u)).trans ?_
  show ∑ k : Fin 32768, v (h.lift (ix1 u) k) = ∑ l : Fin 32768, v (ix2 (0 : Fin 1) l)
  exact Finset.sum_congr rfl fun k _ => congrArg v (lift_lane h u k)

/-- The one entry of a one-by-one block. -/
private theorem idx_S1x1 (y : S1x1.Idx) : y = ix2 (0 : Fin 1) (0 : Fin 1) := by
  funext a
  match a with
  | ⟨0, _⟩ => exact Fin.ext (Nat.lt_one_iff.mp (y _).isLt)
  | ⟨1, _⟩ => exact Fin.ext (Nat.lt_one_iff.mp (y _).isLt)

/-- The cell after a tile: what it held plus the sum of the tile's vector over its lanes. -/
theorem cellStep_apply (v : FVec Ideal S1x32768 .f32) (cell : Vec Ideal S1x1 .f32) (y : S1x1.Idx) :
    k0_pay1 (F := Ideal) v cell y = cell (ix2 (0 : Fin 1) (0 : Fin 1)) + ∑ l : Fin 32768, v (ix2 (0 : Fin 1) l) := by
  rw [idx_S1x1 y]
  unfold k0_pay1
  simp only [shapeCast_self]
  rw [addf_apply, shapeCast_a_1a_apply, laneSum_apply]

/-- The output block holds the cell at every entry. -/
theorem spread_apply (cell : Vec Ideal S1x1 .f32) (y : S1x8x128.Idx) :
    k0_pay2 (F := Ideal) cell y = cell (ix2 (0 : Fin 1) (0 : Fin 1)) := by
  unfold k0_pay2
  refine (broadcastTo_apply _ _ y (ix3 (0 : Fin 1) (0 : Fin 1) (0 : Fin 1)) fun a => ?_).trans ?_
  · match a with
    | ⟨0, _⟩ => rfl
    | ⟨1, _⟩ => rfl
    | ⟨2, _⟩ => rfl
  · exact shapeCast_ab_1ab_apply cell _ 0 0 0

/-- The cell restarts from zero. -/
theorem restart_apply (y : S1x1.Idx) : k0_pay3 (F := Ideal) y = 0 := by
  unfold k0_pay3
  simp only [shapeCast_self]
  rw [broadcast_apply]
  exact Ideal.ofBits_zero_f32

end Cert.KernelIdeal.Tile

end
-- ==== Proof.KCases.lean ====
/-
  What each of the body's three cases leaves behind, as values. At a half's first tile the cell is set to zero and the
  tile's sum added to it; at a later tile the tile's sum is added to what the tile before left; at a half's last tile
  the same, and the output block is filled with the cell.
-/
import proofs.«420542_j25194278159144_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Cert.KernelIdeal Cert.KernelIdeal.Gen

variable {F : FTy → Type} [FloatOps F]

/-- The origin of the cell, as a constant function. -/
private theorem hz2 : (![0, 0] : Fin 2 → Nat) = fun _ => 0 := funext fun a => by fin_cases a <;> rfl

/-- The origin of the output block, as a constant function. -/
private theorem hz3 : (![0, 0, 0] : Fin 3 → Nat) = fun _ => 0 := funext fun a => by fin_cases a <;> rfl

/-- A half's first tile: the cell ends at zero plus the tile's sum. -/
theorem cell_first (c : Dev nD) (i : grid0.Coords) (arg2 : Memref sig .tc .vmem S5x32768 .f32) (harg2 : arg2.IsWhole) (arg3 : Memref sig .tc .vmem S1x32768 .i32) (harg3 : arg3.IsWhole) (arg4 : Memref sig .tc .vmem S5x5 .f32) (harg4 : arg4.IsWhole) (arg5 : Memref sig .tc .vmem S1x8x128 .f32) (harg5 : arg5.IsWhole) (arg6 : Memref sig .tc .vmem S1x1 .f32) (harg6 : arg6.IsWhole) (hc0 : cond0_0 i) (hc1 : ¬cond0_1 i)
    (x0 : Vec F S5x32768 .f32) (x1 : Vec F S1x32768 .i32) (x2 : Vec F S5x5 .f32) :
    sout0_A_0 c i arg2 harg2 arg3 harg3 arg4 harg4 arg5 harg5 arg6 harg6 hc0 hc1 x0 x1 x2 = k0_pay1 (k0_pay4 x0 x1 x2) (k0_pay3 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  -- the later of the two stores covers the whole cell, so the cell holds its payload; the value it read back is
  -- what the earlier store (zero) left; each whole-block load reads the block itself
  rw [View.canon_cons_unit_zero (S := S1x1) hz2, View.readCov_unit_zero (S := S1x1) _ hz2]
  simp only [View.readAt_eq_ld, harg2.read_unread, harg3.read_unread, harg4.read_unread,
    View.ld_unit_zero (S := S5x32768) hz2, View.ld_unit_zero (S := S1x32768) hz2, View.ld_unit_zero (S := S5x5) hz2]

/-- A middle tile: the cell ends at what the tile before left plus the tile's sum. -/
theorem cell_middle (c : Dev nD) (i : grid0.Coords) (arg2 : Memref sig .tc .vmem S5x32768 .f32) (harg2 : arg2.IsWhole) (arg3 : Memref sig .tc .vmem S1x32768 .i32) (harg3 : arg3.IsWhole) (arg4 : Memref sig .tc .vmem S5x5 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : ¬cond0_1 i)
    (x0 : Vec F S5x32768 .f32) (x1 : Vec F S1x32768 .i32) (x2 : Vec F S5x5 .f32) (xs0 : Vec F S1x1 .f32) :
    sout0_B_0 c i arg2 harg2 arg3 harg3 arg4 harg4 arg5 harg5 arg6 harg6 hc0 hc1 x0 x1 x2 xs0 = k0_pay1 (k0_pay4 x0 x1 x2) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  -- the one store covers the whole cell, so the cell holds its payload; each whole-block load reads the block itself,
  -- and the load of the cell reads what the tile before left
  rw [View.canon_unit_zero (S := S1x1) hz2]
  simp only [View.readAt_eq_ld, harg2.read_unread, harg3.read_unread, harg4.read_unread, harg6.read_unread,
    View.ld_unit_zero (S := S5x32768) hz2, View.ld_unit_zero (S := S1x32768) hz2, View.ld_unit_zero (S := S5x5) hz2,
    View.ld_unit_zero (S := S1x1) hz2]

/-- A half's last tile: the cell as at a middle tile, -/
theorem cell_last (c : Dev nD) (i : grid0.Coords) (arg2 : Memref sig .tc .vmem S5x32768 .f32) (harg2 : arg2.IsWhole) (arg3 : Memref sig .tc .vmem S1x32768 .i32) (harg3 : arg3.IsWhole) (arg4 : Memref sig .tc .vmem S5x5 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : cond0_1 i)
    (x0 : Vec F S5x32768 .f32) (x1 : Vec F S1x32768 .i32) (x2 : Vec F S5x5 .f32) (xs0 : Vec F S1x1 .f32) :
    sout0_C_0 c i arg2 harg2 arg3 harg3 arg4 harg4 arg5 harg5 arg6 harg6 hc0 hc1 x0 x1 x2 xs0 = k0_pay1 (k0_pay4 x0 x1 x2) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  -- the one store covers the whole cell, so the cell holds its payload; each whole-block load reads the block itself,
  -- and the load of the cell reads what the tile before left
  rw [View.canon_unit_zero (S := S1x1) hz2]
  simp only [View.readAt_eq_ld, harg2.read_unread, harg3.read_unread, harg4.read_unread, harg6.read_unread,
    View.ld_unit_zero (S := S5x32768) hz2, View.ld_unit_zero (S := S1x32768) hz2, View.ld_unit_zero (S := S5x5) hz2,
    View.ld_unit_zero (S := S1x1) hz2]

/-- and the output block filled with it. -/
theorem out_last (c : Dev nD) (i : grid0.Coords) (arg2 : Memref sig .tc .vmem S5x32768 .f32) (harg2 : arg2.IsWhole) (arg3 : Memref sig .tc .vmem S1x32768 .i32) (harg3 : arg3.IsWhole) (arg4 : Memref sig .tc .vmem S5x5 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : cond0_1 i)
    (x0 : Vec F S5x32768 .f32) (x1 : Vec F S1x32768 .i32) (x2 : Vec F S5x5 .f32) (xs0 : Vec F S1x1 .f32) :
    out0_C_3 c i arg2 harg2 arg3 harg3 arg4 harg4 arg5 harg5 arg6 harg6 hc0 hc1 x0 x1 x2 xs0 = k0_pay2 (k0_pay1 (k0_pay4 x0 x1 x2) xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  -- the one store covers the whole output block, so the block holds its payload: the broadcast of the cell as read
  -- back after this tile's update, which is that update's payload
  rw [View.canon_unit_zero (S := S1x8x128) hz3, View.readCov_unit_zero (S := S1x1) _ hz2]
  simp only [View.readAt_eq_ld, harg2.read_unread, harg3.read_unread, harg4.read_unread, harg6.read_unread,
    View.ld_unit_zero (S := S5x32768) hz2, View.ld_unit_zero (S := S1x32768) hz2, View.ld_unit_zero (S := S5x5) hz2,
    View.ld_unit_zero (S := S1x1) hz2]

end Cert.KernelIdeal.Cases

end
-- ==== Proof.KBlocks.lean ====
/-
  The three input blocks of a tile read at an index: tile `t` holds the logits of rows `32768 t … 32768 t + 32767` with
  the classes down and the rows across (the logits are transposed before the tiles are cut), those rows' labels, and
  the whole transition table.
-/
import proofs.«420542_j25194278159144_2_alg».proof.Proof.Gen.KernelIdeal.Frame
import proofs.«420542_j25194278159144_2_alg».proof.Proof.Spec
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen BloomLoss

variable (m : (ℓ : Loc nD τ sig) → Buf (Elt Ideal) ℓ)

/-- The logits the program is launched on. -/
abbrev logits (c : Dev nD) : SX.Idx → EReal := m ((c.tc : Thread nD τ).loc main_arg0)
/-- The labels the program is launched on. -/
abbrev labels (c : Dev nD) : ST.Idx → BitVec 32 := m ((c.tc : Thread nD τ).loc main_arg1)

/-! ## Where the blocks sit

Each window's block index at point `t`, decided once over the grid's 128 points: the logits' and the labels' blocks are
block `t` along the rows' axis (the index maps compute `64 · core + step`, which is `t`), the table's block is the
whole table. -/

/-- The logits' window: the only block down the classes, block `t` across the rows. -/
private theorem idx0 : ∀ t : Fin cfg0.N, win0_0.index t (0 : Fin 2) = 0 ∧ win0_0.index t (1 : Fin 2) = t.val :=
  (by decide +kernel : ∀ t : Fin grid0.N, _)
/-- The labels' window: the one row, block `t` across. -/
private theorem idx1 : ∀ t : Fin cfg0.N, win0_1.index t (0 : Fin 2) = 0 ∧ win0_1.index t (1 : Fin 2) = t.val :=
  (by decide +kernel : ∀ t : Fin grid0.N, _)
/-- The table's window: always the whole table. -/
private theorem idx2 : ∀ t : Fin cfg0.N, win0_2.index t (0 : Fin 2) = 0 ∧ win0_2.index t (1 : Fin 2) = 0 :=
  (by decide +kernel : ∀ t : Fin grid0.N, _)

/-- A point of the grid is below 128. -/
private theorem point_lt (t : Fin cfg0.N) : t.val < 128 := lt_of_lt_of_eq t.isLt N_0

/-- Row `32768 t + l` is a row of the input. -/
private theorem row_lt (t : Fin cfg0.N) (l : Fin 32768) : t.val * 32768 + l.val < 4194304 := by
  have := point_lt t; have := l.isLt; omega

/-! ## What the tiled region finds in its three arrays

The three host operations before the region write them: the table's literal, the transpose of the logits, the
labels reshaped to one row. -/

/-- The first array is the logits transposed. -/
private theorem arr0_eq (c : Dev nD) : (V m c main_v0 : S5x4194304.Idx → EReal)
    = transpose S5x4194304 [1, 0] (m ((c : Thread nD τ).loc main_arg0)) transposes_S4194304x5_S5x4194304_1_0 := by
  show StableHlo.after hostOps0 (fun b => m (c, b)) (Proc.devRef .tc main_v0) = _
  after_results

/-- The second array is the labels as one row. -/
private theorem arr1_eq (c : Dev nD) : (V m c main_v1 : S1x4194304.Idx → BitVec 32)
    = shapeCast S1x4194304 (m ((c : Thread nD τ).loc main_arg1)) shapeCasts_S4194304_S1x4194304 := by
  show StableHlo.after hostOps0 (fun b => m (c, b)) (Proc.devRef .tc main_v1) = _
  after_results
  rfl

/-- The third array is the literal table, entry `i` the word at `i`'s row-major position. -/
private theorem arr2_eq (c : Dev nD) : (V m c main_cst : S5x5.Idx → EReal)
    = fun i => Ideal.ofBits .f32 (lit0 (S5x5.rowMajor i)) := by
  show StableHlo.after hostOps0 (fun b => m (c, b)) (Proc.devRef .tc main_cst) = _
  after_results
  rfl

/-- The program's literal is the specification's table of words. -/
private theorem lit0_eq : ∀ k : Fin 25, lit0 k = tblBits k.val := by decide

/-- The literal's entry at an index is the specification's word at the index's row-major position, five times the row
    plus the column. -/
private theorem lit0_at (i : S5x5.Idx) : lit0 (S5x5.rowMajor i) = tblBits ((i 0).val * 5 + (i 1).val) :=
  (lit0_eq _).trans (congrArg tblBits (Shape.rowMajor_val_two i))

/-! ## The blocks at an index -/

/-- Entry (class `j`, lane `l`) of tile `t`'s block of logits is logit `j` of row `32768 t + l`. -/
theorem logitsBlock_apply (c : Dev nD) (t : Fin cfg0.N) (j : Fin 5) (l : Fin 32768) :
    (iblk m c 0 t : Vec Ideal S5x32768 .f32) (ix2 j l) = rowXn (logits m c) (t.val * 32768 + l.val) j := by
  have hn := row_lt t l
  unfold iblk
  rw [View.read_apply]
  show V m c main_v0 _ = _
  unfold rowXn
  rw [dif_pos hn]
  refine (congrFun (arr0_eq m c) _).trans ?_
  -- the transpose swaps the two coordinates; the block's entry (j, l) is the array's (j, 32768 t + l)
  refine transpose_apply [1, 0] _ _ _ (ix2 ⟨t.val * 32768 + l.val, hn⟩ j) ?_
  intro b
  match b with
  | ⟨0, _⟩ => show j.val = win0_0.index t 0 * 5 + 1 * j.val; rw [(idx0 t).1]; omega
  | ⟨1, _⟩ => show t.val * 32768 + l.val = win0_0.index t 1 * 32768 + 1 * l.val; rw [(idx0 t).2]; omega

/-- Lane `l` of tile `t`'s block of labels is the label of row `32768 t + l`. -/
theorem labelsBlock_apply (c : Dev nD) (t : Fin cfg0.N) (l : Fin 32768) :
    (iblk m c 1 t : Vec Ideal S1x32768 .i32) (ix2 (0 : Fin 1) l) = rowTn (labels m c) (t.val * 32768 + l.val) := by
  have hn := row_lt t l
  unfold iblk
  rw [View.read_apply]
  show V m c main_v1 _ = _
  unfold rowTn
  rw [dif_pos hn]
  refine (congrFun (arr1_eq m c) _).trans ?_
  -- the reshape keeps the row-major position: (0, 32768 t + l) of one row of 4194304 is position 32768 t + l
  refine shapeCast_apply _ _ _ (ix1 ⟨t.val * 32768 + l.val, hn⟩) ?_
  rw [Shape.rowMajor_val_one, Shape.rowMajor_val_two]
  show t.val * 32768 + l.val
    = (win0_1.index t 0 * 1 + 1 * (0 : Fin 1).val) * 4194304 + (win0_1.index t 1 * 32768 + 1 * l.val)
  rw [(idx1 t).1, (idx1 t).2]
  show t.val * 32768 + l.val = (0 * 1 + 1 * 0) * 4194304 + (t.val * 32768 + 1 * l.val)
  omega

/-- Every tile's third block is the transition table. -/
theorem tableBlock_apply (c : Dev nD) (t : Fin cfg0.N) (a b : Fin 5) :
    (iblk m c 2 t : Vec Ideal S5x5 .f32) (ix2 a b) = tbl a.val b.val := by
  unfold iblk
  rw [View.read_apply]
  show V m c main_cst _ = _
  refine (congrFun (arr2_eq m c) _).trans ?_
  show Ideal.ofBits .f32 (lit0 (S5x5.rowMajor _)) = _
  unfold tbl
  refine (congrArg (Ideal.ofBits .f32) (lit0_at _)).trans ?_
  -- entry (a, b) of the whole-table block sits at row-major position 5 a + b
  refine congrArg (fun n => Ideal.ofBits .f32 (tblBits n)) ?_
  show (win0_2.index t 0 * 5 + 1 * a.val) * 5 + (win0_2.index t 1 * 5 + 1 * b.val) = 5 * a.val + b.val
  rw [(idx2 t).1, (idx2 t).2]
  omega

end Cert.KernelIdeal.Blocks

end
-- ==== Proof.KHalves.lean ====
/-
  The cell carried from tile to tile, in closed form: after tile `n` it holds zero plus the sums of the tiles of `n`'s
  half up to `n`; so the half's last tile fills the output block with the half's sum, and the output array ends with
  half `q`'s sum at every entry of its block `q`.
-/
import proofs.«420542_j25194278159144_2_alg».proof.Proof.KTile
import proofs.«420542_j25194278159144_2_alg».proof.Proof.KCases
import proofs.«420542_j25194278159144_2_alg».proof.Proof.KBlocks

open scoped BigOperators

noncomputable section

namespace Cert.KernelIdeal.Halves

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks BloomLoss

variable (m : (ℓ : Loc nD τ sig) → Buf (Elt Ideal) ℓ)

/-! ## One tile -/

/-- Tile `t`'s block of logits, -/
private abbrev xblk (c : Dev nD) (t : Fin cfg0.N) : Vec Ideal S5x32768 .f32 := iblk m c 0 t
/-- its block of labels, -/
private abbrev lblk (c : Dev nD) (t : Fin cfg0.N) : Vec Ideal S1x32768 .i32 := iblk m c 1 t
/-- and its copy of the table. -/
private abbrev tblk (c : Dev nD) (t : Fin cfg0.N) : Vec Ideal S5x5 .f32 := iblk m c 2 t

/-- The tile's vector: one row loss per lane. -/
private abbrev tvec (c : Dev nD) (t : Fin cfg0.N) : FVec Ideal S1x32768 .f32 :=
  k0_pay4 (F := Ideal) (xblk m c t) (lblk m c t) (tblk m c t)

/-- Lane `l` of tile `t` is a row of the arrays: 128 tiles of 32768 rows are the 4194304 rows. -/
private theorem row_lt (t : Fin cfg0.N) (l : Fin 32768) : t.val * 32768 + l.val < 4194304 := by
  have hN : t.val < 128 := lt_of_lt_of_eq t.isLt (show cfg0.N = 128 from N_0)
  have hl : l.val < 32768 := l.isLt
  omega

/-- The tile's vector summed over its lanes is the sum of the losses of the tile's rows. -/
private theorem tvec_sum (c : Dev nD) (hL : ∀ i : Fin 4194304, (labels m c (ix1 i)).toNat < 5) (t : Fin cfg0.N) :
    ∑ l : Fin 32768, tvec m c t (ix2 (0 : Fin 1) l) = tileSum (logits m c) (labels m c) t.val := by
  unfold tileSum
  refine Finset.sum_congr rfl fun l _ => ?_
  have hlab : lblk m c t (ix2 (0 : Fin 1) l) = rowTn (labels m c) (t.val * 32768 + l.val) :=
    labelsBlock_apply m c t l
  have ht : (lblk m c t (ix2 (0 : Fin 1) l)).toNat < 5 := by
    rw [hlab]; unfold rowTn; rw [dif_pos (row_lt t l)]; exact hL ⟨_, row_lt t l⟩
  refine (Tile.rowLosses_apply (xblk m c t) (lblk m c t) (tblk m c t) (fun a b => tableBlock_apply m c t a b) l ht).trans ?_
  exact congr (congrArg rowLoss (funext fun j => logitsBlock_apply m c t j l)) hlab

/-! ## The cell, tile after tile -/

/-- The cell has one entry. -/
private theorem cell_idx (y : S1x1.Idx) : y = ix2 (0 : Fin 1) (0 : Fin 1) := by
  funext a
  match a with
  | ⟨0, _⟩ => exact Subsingleton.elim (α := Fin 1) _ _
  | ⟨1, _⟩ => exact Subsingleton.elim (α := Fin 1) _ _

/-- What a half's first tile leaves in the cell: zero and the tile's sum. -/
private def cellFirst (c : Dev nD) (n : ℕ) (h : n < cfg0.N) : S1x1.Idx → EReal :=
  k0_pay1 (F := Ideal) (tvec m c ⟨n, h⟩) (k0_pay3 (F := Ideal))

/-- What a later tile makes of the cell it finds: the tile's sum added. -/
private def cellNext (c : Dev nD) (n : ℕ) (h : n < cfg0.N) (acc : S1x1.Idx → EReal) : S1x1.Idx → EReal :=
  k0_pay1 (F := Ideal) (tvec m c ⟨n, h⟩) acc

/-- At a half's first tile the cell restarts. -/
private theorem cell_reset (c : Dev nD) (n : ℕ) (h : n < cfg0.N) (h0 : n % 64 = 0) :
    (outsAt0 m c n h).2 = cellFirst m c n h := by
  have h1 : ¬n % 64 = 63 := by omega
  rw [outsAt0_A m c ⟨n, h⟩ h0 h1]
  dsimp only
  exact Cases.cell_first (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h1 ((hcond0_1 ⟨n, h⟩).mp hh))
    (iblk m c 0 ⟨n, h⟩) (iblk m c 1 ⟨n, h⟩) (iblk m c 2 ⟨n, h⟩)

/-- At any other tile the cell steps from what the tile before left. -/
private theorem cell_step (c : Dev nD) (n : ℕ) (h : n + 1 < cfg0.N) (h0 : ¬(n + 1) % 64 = 0) :
    (outsAt0 m c (n + 1) h).2 = cellNext m c (n + 1) h (outsAt0 m c n (Nat.lt_of_succ_lt h)).2 := by
  by_cases h1 : (n + 1) % 64 = 63
  · rw [outsAt0_C m c ⟨n + 1, h⟩ h0 h1]
    dsimp only
    exact Cases.cell_last (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h1]
    dsimp only
    exact Cases.cell_middle (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (outsAt0 m c n (Nat.lt_of_succ_lt h)).2

/-- The first tile's cell is zero plus the tile's sum. -/
private theorem cellFirst_apply (c : Dev nD) (hL : ∀ i : Fin 4194304, (labels m c (ix1 i)).toNat < 5) (n : ℕ) (h : n < cfg0.N)
    (y : S1x1.Idx) : cellFirst m c n h y = 0 + tileSum (logits m c) (labels m c) n := by
  unfold cellFirst
  rw [Tile.cellStep_apply (tvec m c ⟨n, h⟩) (k0_pay3 (F := Ideal)) y, Tile.restart_apply, tvec_sum m c hL ⟨n, h⟩]

/-- A later tile's cell is the cell it found plus the tile's sum. -/
private theorem cellNext_apply (c : Dev nD) (hL : ∀ i : Fin 4194304, (labels m c (ix1 i)).toNat < 5) (n : ℕ) (h : n < cfg0.N)
    (acc : S1x1.Idx → EReal) (y : S1x1.Idx) :
    cellNext m c n h acc y = acc y + tileSum (logits m c) (labels m c) n := by
  unfold cellNext
  rw [Tile.cellStep_apply (tvec m c ⟨n, h⟩) acc y, tvec_sum m c hL ⟨n, h⟩, ← cell_idx y]

/-- After tile `n` the cell holds zero plus the sums of tiles `64 (n / 64) … n`. -/
theorem cell_eq (c : Dev nD) (hL : ∀ i : Fin 4194304, (labels m c (ix1 i)).toNat < 5) (n : ℕ) (h : n < cfg0.N) (y : S1x1.Idx) :
    (outsAt0 m c n h).2 y
      = 0 + ∑ s ∈ Finset.range (n % 64 + 1), tileSum (logits m c) (labels m c) (64 * (n / 64) + s) := by
  have h' : 64 * (n / 64) + n % 64 < cfg0.N := by rw [Nat.div_add_mod]; exact h
  have hfold := Pipeline.eq_accAt_of_mod (N := cfg0.N) (α := S1x1.Idx → EReal)
    (fun n h => (outsAt0 m c n h).2) 64 (cellFirst m c) (cellNext m c)
    (fun n h h0 => cell_reset m c n h h0) (fun n h h0 => cell_step m c n h h0) (by decide) n h h'
  have hsum := Pipeline.accAt_add_apply (N := cfg0.N) (cellFirst m c) (cellNext m c) (fun _ => (0 : EReal))
    (fun n _ => tileSum (logits m c) (labels m c) n) (64 * (n / 64)) 63
    (fun h i => cellFirst_apply m c hL _ h i) (fun n h acc i _ _ => cellNext_apply m c hL n h acc i)
    (n % 64) (by omega) h' y
  exact (congrFun hfold y).trans hsum

/-! ## The output block -/

/-- At a half's last tile the output block is the cell, as that tile leaves it, spread over the block. -/
private theorem out_spread (c : Dev nD) (n : ℕ) (h : n < cfg0.N) (h63 : n % 64 = 63) :
    (outsAt0 m c n h).1 = k0_pay2 (F := Ideal) (outsAt0 m c n h).2 := by
  have h0 : ¬n % 64 = 0 := by omega
  rw [outsAt0_C m c ⟨n, h⟩ h0 h63]
  dsimp only
  exact (Cases.out_last (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) scM0_0 (Memref.isWhole_whole _)
      (fun hh => h0 ((hcond0_0 ⟨n, h⟩).mp hh)) ((hcond0_1 ⟨n, h⟩).mpr h63)
      (iblk m c 0 ⟨n, h⟩) (iblk m c 1 ⟨n, h⟩) (iblk m c 2 ⟨n, h⟩)
      (outsAt0 m c (n - 1) (Nat.lt_of_le_of_lt (Nat.sub_le _ _) h)).2).trans
    (congrArg (k0_pay2 (F := Ideal)) (Cases.cell_last (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) scM0_0 (Memref.isWhole_whole _)
      (fun hh => h0 ((hcond0_0 ⟨n, h⟩).mp hh)) ((hcond0_1 ⟨n, h⟩).mpr h63)
      (iblk m c 0 ⟨n, h⟩) (iblk m c 1 ⟨n, h⟩) (iblk m c 2 ⟨n, h⟩)
      (outsAt0 m c (n - 1) (Nat.lt_of_le_of_lt (Nat.sub_le _ _) h)).2).symm)

/-- After a half's last tile the output block holds the half's sum at every entry. -/
theorem out_eq (c : Dev nD) (hL : ∀ i : Fin 4194304, (labels m c (ix1 i)).toNat < 5) (n : ℕ) (h : n < cfg0.N)
    (h63 : n % 64 = 63) (y : S1x8x128.Idx) :
    (outsAt0 m c n h).1 y = halfSum (logits m c) (labels m c) (n / 64) := by
  refine (congrFun (out_spread m c n h h63) y).trans ?_
  refine (Tile.spread_apply (outsAt0 m c n h).2 y).trans ?_
  refine (cell_eq m c hL n h _).trans ?_
  rw [h63]
  rfl

/-! ## The output array -/

/-- The output array when the tiles are done: block `q` holds half `q`'s sum. -/
def halves (c : Dev nD) : Buf (Elt Ideal) ((c.tc : Thread nD τ).loc main_v2) :=
  fun i : S2x8x128.Idx => halfSum (logits m c) (labels m c) (i 0).val

/-- The output's block at tile `t` is block `t / 64` along the first axis, and the whole of the other two. -/
private theorem outIndex : ∀ t : Fin cfg0.N, win0_3.index t (0 : Fin 3) = t.val / 64
    ∧ win0_3.index t (1 : Fin 3) = 0 ∧ win0_3.index t (2 : Fin 3) = 0 :=
  (by decide +kernel : ∀ t : Fin grid0.N, win0_3.index t (0 : Fin 3) = t.val / 64
    ∧ win0_3.index t (1 : Fin 3) = 0 ∧ win0_3.index t (2 : Fin 3) = 0)

/-- What a half's last tile writes back is its block of the array of the halves' sums. -/
private theorem flushed_eq (c : Dev nD) (hL : ∀ i : Fin 4194304, (labels m c (ix1 i)).toNat < 5) (t : Fin cfg0.N)
    (hf : (cfg0.win 3).flush t = true) :
    (dats m 0 c).flushed 3 t = ((cfg0.win 3).blk t).view.read (Elt Ideal) (halves m c) := by
  have h63 : t.val % 64 = 63 := (flush0_3 t).mp hf
  show (cfg0.win 3).cut (grid0.coords t) ((dats m 0 c).after 3 t) = _
  rw [after0_3]
  funext y
  show (outsAt0 m c t.val t.isLt).1 _ = halves m c (((cfg0.win 3).blk t).view.emb y)
  refine (out_eq m c hL t.val t.isLt h63 _).trans ?_
  show halfSum (logits m c) (labels m c) (t.val / 64)
    = halfSum (logits m c) (labels m c) ((((cfg0.win 3).blk t).view.emb y) 0).val
  congr 1
  show t.val / 64 = win0_3.index t (0 : Fin 3) * 1 + 1 * (y 0).val
  rw [(outIndex t).1]
  have hy : (y 0).val < 1 := (y 0).isLt
  omega

/-- Every entry of the output array lies in the block its half's last tile writes back. -/
private theorem cover (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 128 := N_0
  have hlt : 64 * (i 0).val + 63 < cfg0.N := by rw [hN]; omega
  obtain ⟨e0, e1, e2⟩ := outIndex ⟨64 * (i 0).val + 63, hlt⟩
  refine ⟨⟨64 * (i 0).val + 63, hlt⟩, (flush0_3 _).mpr (by show (64 * (i 0).val + 63) % 64 = 63; omega), ?_⟩
  show i ∈ ((View.whole main_v2).slice (win0_3.rect ⟨64 * (i 0).val + 63, hlt⟩)).set
  rw [View.set_slice_whole, Rect.mem_set_unit]
  intro a
  match a with
  | ⟨0, _⟩ =>
    show win0_3.index ⟨64 * (i 0).val + 63, hlt⟩ (0 : Fin 3) * 1 ≤ (i 0).val
      ∧ (i 0).val < win0_3.index ⟨64 * (i 0).val + 63, hlt⟩ (0 : Fin 3) * 1 + 1
    rw [e0]; show (64 * (i 0).val + 63) / 64 * 1 ≤ (i 0).val ∧ (i 0).val < (64 * (i 0).val + 63) / 64 * 1 + 1; omega
  | ⟨1, _⟩ =>
    show win0_3.index ⟨64 * (i 0).val + 63, hlt⟩ (1 : Fin 3) * 8 ≤ (i 1).val
      ∧ (i 1).val < win0_3.index ⟨64 * (i 0).val + 63, hlt⟩ (1 : Fin 3) * 8 + 8
    rw [e1]; omega
  | ⟨2, _⟩ =>
    show win0_3.index ⟨64 * (i 0).val + 63, hlt⟩ (2 : Fin 3) * 128 ≤ (i 2).val
      ∧ (i 2).val < win0_3.index ⟨64 * (i 0).val + 63, hlt⟩ (2 : Fin 3) * 128 + 128
    rw [e2]; omega

theorem final (c : Dev nD) (hL : ∀ i : Fin 4194304, (labels m c (ix1 i)).toNat < 5) :
    (dats m 0 c).arrAt 3 cfg0.N = halves m c :=
  (dats m 0 c).arrAt_eq_of_cover 3 (halves m c) (fun t hf => flushed_eq m c hL t hf) cover

end Cert.KernelIdeal.Halves

end
-- ==== Proof.KRun.lean ====
/-
  The tiled program's run read as a value: after the tiles, the two halves' sums are taken from the output array,
  added from zero and divided by the row count.
-/
import proofs.«420542_j25194278159144_2_alg».proof.Proof.KHalves
import Idealize.ShloMosaic.PureOps.Ideal.Laws
import Idealize.ShloMosaic.Lib.StableHlo.Run
import Idealize.ShloMosaic.Lib.ValueIdxRank1
import Idealize.ShloMosaic.Lib.Pipeline.Value

open scoped BigOperators

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Halves BloomLoss

variable (m : (ℓ : Loc nD τ sig) → Buf (Elt Ideal) ℓ) (ρ : Dev nD → PrngReg)

/-! ## The lines after the tiles, read at an index -/

/-- The slice `[0:2, 0:1, 0:1]` keeps entry (q, 0, 0) of each of the two output blocks. -/
private theorem slice_apply (A : S2x8x128.Idx → EReal) (q : Fin 2) :
    extractStridedSlice S2x1x1 ![0, 0, 0] A slices_S2x8x128_S2x1x1_0_0_0 (ix3 q (0 : Fin 1) (0 : Fin 1))
      = A (ix3 q (0 : Fin 8) (0 : Fin 128)) :=
  extractStridedSlice_apply _ _ _ _ _ (fun ax => by
    match ax with
    | ⟨0, _⟩ => exact (Nat.zero_add _).symm
    | ⟨1, _⟩ => rfl
    | ⟨2, _⟩ => rfl)

/-- The two kept entries laid out as a vector of length two: position q of the vector is entry (q, 0, 0), the two having
    the same row-major position q. -/
private theorem cast_apply (B : S2x1x1.Idx → EReal) (q : Fin 2) :
    shapeCast S2 B shapeCasts_S2x1x1_S2 (ix1 q) = B (ix3 q (0 : Fin 1) (0 : Fin 1)) :=
  shapeCast_apply B _ _ _ (by
    rw [Shape.rowMajor_val_three, Shape.rowMajor_val_one]
    show (q.val * 1 + 0) * 1 + 0 = q.val
    omega)

/-- The lines after the tiles as a function of the output array `A`: its entries (0, 0, 0) and (1, 0, 0) added from zero,
    over the row count. The host's sum into a rank-0 result is the initial value plus the sum over every index of the
    length-two vector; that index set is `Fin 2` through its one coordinate. -/
private theorem tail_value (A : S2x8x128.Idx → EReal) :
    Host.divf (F := Ideal)
        (Host.reduceAdd (F := Ideal)
          (fun i => shapeCast S2 (extractStridedSlice S2x1x1 ![0, 0, 0] A slices_S2x8x128_S2x1x1_0_0_0) shapeCasts_S2x1x1_S2 i)
          (constant (F := Ideal) S_ .f32 0x00000000#32) reducesTo_S2_S_d0 h_S_)
        (constant (F := Ideal) S_ .f32 0x4A800000#32)
      = fun _ => Ideal.div (0 + ∑ q : Fin 2, A (ix3 q (0 : Fin 8) (0 : Fin 128))) cB := by
  funext j
  show Ideal.div (Ideal.hostReduceAdd reducesTo_S2_S_d0 _ (Ideal.ofBits .f32 0x00000000#32) j) cB = _
  rw [Ideal.hostReduceAdd_total reducesTo_S2_S_d0 (fun b => b.elim0), Ideal.ofBits_zero_f32]
  refine congrArg (fun z => Ideal.div (0 + z) cB) ?_
  refine (Equiv.sum_comp idxEquiv1.symm _).symm.trans ?_
  exact Finset.sum_congr rfl fun q _ => (cast_apply _ q).trans (slice_apply A q)

/-! ## The result buffer after the whole program -/

/-- What the lines after the tiles leave in the result buffer: they read the output array, which the tiles leave with
    block `q` at half `q`'s sum, so the result is the two halves' sums added from zero over the row count — `kernLoss`. -/
private theorem result_eq (c : Dev nD) (hL : ∀ i : Fin 4194304, (labels m c (ix1 i)).toNat < 5) :
    Pipeline.afterTail₀ cfgs (dats m) 0 (V0 m) [hostOps1] c main_v6 = fun _ => kernLoss (logits m c) (labels m c) := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.tc.devRef main_v2)
      = halves m c :=
    (Pipeline.withArrays_arr spec0 launch0.win.arr_inj c _ _ 3).trans (Halves.final m c hL)
  rw [hW]
  refine (tail_value (halves m c)).trans ?_
  unfold kernLoss halves
  rfl

/-! ## The run -/

set_option backward.isDefEq.respectTransparency.types false in
/-- Every weakly fair execution ends with the result at `kernLoss` of the launch's logits and labels, the two arguments
    unchanged — when every label names a class. -/
theorem run (hL : ∀ (c : Dev nD) (i : Fin 4194304), (labels m c (ix1 i)).toNat < 5) :
    θ_run defs (onTc (τ := τ) (main (F := Ideal))) ⟨m, fun _ => 0, ρ⟩ fun r => ∀ c : Dev nD,
      r.2.mem ((c.tc : Thread nD τ).loc main_v6) = (fun _ => kernLoss (logits m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v6 (Pipeline.mem_restRefs_of main_v6 (by decide) (by decide))).trans (result_eq m c (hL c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.RefTerm.lean ====
/-
  The plain program's result as one pure function of its two arguments: its operations composed in their order, the
  two functions it calls (the log-softmax and the one-hot encoding) in line. Cut in four after the source: the
  log-softmax of the logits, the one-hot encoding of the labels, the table's rows gathered at the labels, and the two
  means combined.
-/
import proofs.«420542_j25194278159144_2_alg».proof.Proof.Gen.ReferenceIdeal

noncomputable section

namespace Cert.ReferenceIdeal.Term

open Idealize.ShloMosaic Cert.ReferenceIdeal Cert.ReferenceIdeal.Gen

variable {F : FTy → Type} [FloatOps F]

/-- The log-softmax along the classes: the logits less their row's maximum, less the logarithm of the row's sum of
    exponentials. -/
def logSoftmax (x : FVec F S4194304x5 .f32) : FVec F S4194304x5 .f32 :=
  let cst : FVec F S_ .f32 := constant S_ .f32 0xFF800000#32
  let v0 : FVec F S4194304 .f32 := Host.reduce FloatOps.maximumf x cst reducesTo_S4194304x5_S4194304_d1 h_S_
  let cst_0 : FVec F S_ .f32 := constant S_ .f32 0xFF800000#32
  let v1 : FVec F S4194304 .f32 := broadcastInDim S4194304 ![] bcast_S_S4194304 cst_0
  let v2 : FVec F S4194304 .f32 := maximumf v1 v0
  let v3 : FVec F S4194304x1 .f32 := broadcastInDim S4194304x1 ![0] bcast_S4194304_S4194304x1_0 v2
  let v4 : FVec F S4194304x5 .f32 := broadcastInDim S4194304x5 ![0, 1] bcast_S4194304x1_S4194304x5_0_1 v3
  let v5 : FVec F S4194304x5 .f32 := subf x v4
  let v6 : FVec F S4194304x5 .f32 := Host.exp v5
  let cst_1 : FVec F S_ .f32 := constant S_ .f32 0x00000000#32
  let v7 : FVec F S4194304 .f32 := Host.reduceAdd v6 cst_1 reducesTo_S4194304x5_S4194304_d1 h_S_
  let v8 : FVec F S4194304x1 .f32 := broadcastInDim S4194304x1 ![0] bcast_S4194304_S4194304x1_0 v7
  let v9 : FVec F S4194304x1 .f32 := Host.log v8
  let v10 : FVec F S4194304x5 .f32 := broadcastInDim S4194304x5 ![0, 1] bcast_S4194304x1_S4194304x5_0_1 v9
  subf v5 v10

/-- The one-hot encoding of the labels over the five classes, as floats. -/
def oneHot (t : IVec S4194304 32) : FVec F S4194304x5 .f32 :=
  let v0 : IVec S4194304x1 32 := broadcastInDim S4194304x1 ![0] bcast_S4194304_S4194304x1_0 t
  let v1 : IVec S1x5 32 := iotaInDim S1x5 32 1
  let v2 : IVec S4194304x5 32 := broadcastInDim S4194304x5 ![0, 1] bcast_S4194304x1_S4194304x5_0_1 v0
  let v3 : IVec S4194304x5 32 := broadcastInDim S4194304x5 ![0, 1] bcast_S1x5_S4194304x5_0_1 v1
  let v4 : IVec S4194304x5 1 := cmpi .eq v2 v3
  uitofp .f32 v4

/-- The transition table, and its rows gathered at the labels (a negative label counted from the end). -/
def tableRows (t : IVec S4194304 32) : FVec F S4194304x5 .f32 :=
  let cst : FVec F S5x5 .f32 := fun i => FloatOps.ofBits .f32 (lit0 (S5x5.rowMajor i))
  let c : IVec S_ 32 := constantI S_ 32 0#32
  let v12 : IVec S4194304 32 := broadcastInDim S4194304 ![] bcast_S_S4194304 c
  let v13 : IVec S4194304 1 := cmpi .slt t v12
  let c_5 : IVec S_ 32 := constantI S_ 32 5#32
  let v14 : IVec S4194304 32 := broadcastInDim S4194304 ![] bcast_S_S4194304 c_5
  let v15 : IVec S4194304 32 := addi t v14
  let v16 : IVec S4194304 32 := select v13 v15 t
  let v17 : IVec S4194304x1 32 := broadcastInDim S4194304x1 ![0] bcast_S4194304_S4194304x1_0 v16
  Host.gather gather_S5x5_S4194304x1_S4194304x5_1_0_n_n_0_1_15 cst v17

/-- The result: the mean over the rows of the smoothed cross entropy, plus a tenth of the mean transition penalty. -/
def refOut (x : FVec F S4194304x5 .f32) (t : IVec S4194304 32) : FVec F S_ .f32 :=
  let v0 : FVec F S4194304x5 .f32 := logSoftmax x
  let v1 : FVec F S4194304x5 .f32 := oneHot t
  let cst_0 : FVec F S_ .f32 := constant S_ .f32 0x3F600000#32
  let v2 : FVec F S4194304x5 .f32 := broadcastInDim S4194304x5 ![] bcast_S_S4194304x5 cst_0
  let v3 : FVec F S4194304x5 .f32 := mulf v1 v2
  let cst_1 : FVec F S_ .f32 := constant S_ .f32 0x3CCCCCCD#32
  let v4 : FVec F S4194304x5 .f32 := broadcastInDim S4194304x5 ![] bcast_S_S4194304x5 cst_1
  let v5 : FVec F S4194304x5 .f32 := addf v3 v4
  let v6 : FVec F S4194304x5 .f32 := mulf v5 v0
  let cst_2 : FVec F S_ .f32 := constant S_ .f32 0x00000000#32
  let v7 : FVec F S4194304 .f32 := Host.reduceAdd v6 cst_2 reducesTo_S4194304x5_S4194304_d1 h_S_
  let v8 : FVec F S4194304 .f32 := Host.negf v7
  let cst_3 : FVec F S_ .f32 := constant S_ .f32 0x00000000#32
  let v9 : FVec F S_ .f32 := Host.reduceAdd v8 cst_3 reducesTo_S4194304_S_d0 h_S_
  let cst_4 : FVec F S_ .f32 := constant S_ .f32 0x4A800000#32
  let v10 : FVec F S_ .f32 := Host.divf v9 cst_4
  let v11 : FVec F S4194304x5 .f32 := Host.exp v0
  let v18 : FVec F S4194304x5 .f32 := tableRows t
  let v19 : FVec F S4194304x5 .f32 := mulf v11 v18
  let cst_6 : FVec F S_ .f32 := constant S_ .f32 0x00000000#32
  let v20 : FVec F S4194304 .f32 := Host.reduceAdd v19 cst_6 reducesTo_S4194304x5_S4194304_d1 h_S_
  let cst_7 : FVec F S_ .f32 := constant S_ .f32 0x00000000#32
  let v21 : FVec F S_ .f32 := Host.reduceAdd v20 cst_7 reducesTo_S4194304_S_d0 h_S_
  let cst_8 : FVec F S_ .f32 := constant S_ .f32 0x4A800000#32
  let v22 : FVec F S_ .f32 := Host.divf v21 cst_8
  let cst_9 : FVec F S_ .f32 := constant S_ .f32 0x3DCCCCCD#32
  let v23 : FVec F S_ .f32 := mulf cst_9 v22
  addf v10 v23

end Cert.ReferenceIdeal.Term

end
-- ==== Proof.RefRun.lean ====
/-
  The plain program's run: its operations in order, the two called functions in line, and what every weakly fair
  execution leaves in the result — the composed term of the two arguments.
-/
import proofs.«420542_j25194278159144_2_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program's fifty-six operations, in order: the transition table; the log-softmax's fifteen (the row maximum,
    the shifted logits, their exponentials' row sum and its logarithm) over the first call's buffers; the one-hot
    encoding's six over the second call's; then the smoothed cross entropy's mean, the table's rows gathered at the
    labels, the penalty's mean and the weighted sum of the two. -/
abbrev ops : List (HloOp τ sig (Elt F)) :=
  [ nullary main_cst (fun i => FloatOps.ofBits .f32 (lit0 (S5x5.rowMajor i))),
    TRef.nullary main_call0.cst (constant S_ .f32 0xFF800000#32),
    TRef.binary (.of main_arg0 : TRef sig ⟨S4194304x5, .f32⟩) main_call0.cst main_call0.v0 (fun x v => Host.reduce FloatOps.maximumf x v reducesTo_S4194304x5_S4194304_d1 h_S_),
    TRef.nullary main_call0.cst_0 (constant S_ .f32 0xFF800000#32),
    TRef.unary main_call0.cst_0 main_call0.v1 (broadcastInDim S4194304 ![] bcast_S_S4194304),
    TRef.binary main_call0.v1 main_call0.v0 main_call0.v2 maximumf,
    TRef.unary main_call0.v2 main_call0.v3 (broadcastInDim S4194304x1 ![0] bcast_S4194304_S4194304x1_0),
    TRef.unary main_call0.v3 main_call0.v4 (broadcastInDim S4194304x5 ![0, 1] bcast_S4194304x1_S4194304x5_0_1),
    TRef.binary (.of main_arg0 : TRef sig ⟨S4194304x5, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S4194304x5_S4194304_d1 h_S_),
    TRef.unary main_call0.v7 main_call0.v8 (broadcastInDim S4194304x1 ![0] bcast_S4194304_S4194304x1_0),
    TRef.unary main_call0.v8 main_call0.v9 Host.log,
    TRef.unary main_call0.v9 main_call0.v10 (broadcastInDim S4194304x5 ![0, 1] bcast_S4194304x1_S4194304x5_0_1),
    TRef.binary main_call0.v5 main_call0.v10 main_call0.v11 subf,
    TRef.unary (.of main_arg1 : TRef sig ⟨S4194304, .i32⟩) main_call1.v0 (broadcastInDim S4194304x1 ![0] bcast_S4194304_S4194304x1_0),
    TRef.nullary main_call1.v1 (iotaInDim S1x5 32 1),
    TRef.unary main_call1.v0 main_call1.v2 (broadcastInDim S4194304x5 ![0, 1] bcast_S4194304x1_S4194304x5_0_1),
    TRef.unary main_call1.v1 main_call1.v3 (broadcastInDim S4194304x5 ![0, 1] bcast_S1x5_S4194304x5_0_1),
    TRef.binary main_call1.v2 main_call1.v3 main_call1.v4 (cmpi .eq),
    TRef.unary main_call1.v4 main_call1.v5 (uitofp .f32),
    nullary main_cst_0 (constant S_ .f32 0x3F600000#32),
    unary main_cst_0 main_v2 (broadcastInDim S4194304x5 ![] bcast_S_S4194304x5 : (⟨S_, .f32⟩ : BufTy).Contents (Elt F) → (⟨S4194304x5, .f32⟩ : BufTy).Contents (Elt F)),
    binary main_v1 main_v2 main_v3 (mulf : (⟨S4194304x5, .f32⟩ : BufTy).Contents (Elt F) → (⟨S4194304x5, .f32⟩ : BufTy).Contents (Elt F) → (⟨S4194304x5, .f32⟩ : BufTy).Contents (Elt F)),
    nullary main_cst_1 (constant S_ .f32 0x3CCCCCCD#32),
    unary main_cst_1 main_v4 (broadcastInDim S4194304x5 ![] bcast_S_S4194304x5 : (⟨S_, .f32⟩ : BufTy).Contents (Elt F) → (⟨S4194304x5, .f32⟩ : BufTy).Contents (Elt F)),
    binary main_v3 main_v4 main_v5 (addf : (⟨S4194304x5, .f32⟩ : BufTy).Contents (Elt F) → (⟨S4194304x5, .f32⟩ : BufTy).Contents (Elt F) → (⟨S4194304x5, .f32⟩ : BufTy).Contents (Elt F)),
    binary main_v5 main_v0 main_v6 (mulf : (⟨S4194304x5, .f32⟩ : BufTy).Contents (Elt F) → (⟨S4194304x5, .f32⟩ : BufTy).Contents (Elt F) → (⟨S4194304x5, .f32⟩ : BufTy).Contents (Elt F)),
    nullary main_cst_2 (constant S_ .f32 0x00000000#32),
    binary main_v6 main_cst_2 main_v7 ((fun x v => Host.reduceAdd x v reducesTo_S4194304x5_S4194304_d1 h_S_) : (⟨S4194304x5, .f32⟩ : BufTy).Contents (Elt F) → (⟨S_, .f32⟩ : BufTy).Contents (Elt F) → (⟨S4194304, .f32⟩ : BufTy).Contents (Elt F)),
    unary main_v7 main_v8 (Host.negf : (⟨S4194304, .f32⟩ : BufTy).Contents (Elt F) → (⟨S4194304, .f32⟩ : BufTy).Contents (Elt F)),
    nullary main_cst_3 (constant S_ .f32 0x00000000#32),
    binary main_v8 main_cst_3 main_v9 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_4 (constant S_ .f32 0x4A800000#32),
    binary main_v9 main_cst_4 main_v10 (Host.divf : (⟨S_, .f32⟩ : BufTy).Contents (Elt F) → (⟨S_, .f32⟩ : BufTy).Contents (Elt F) → (⟨S_, .f32⟩ : BufTy).Contents (Elt F)),
    unary main_v0 main_v11 (Host.exp : (⟨S4194304x5, .f32⟩ : BufTy).Contents (Elt F) → (⟨S4194304x5, .f32⟩ : BufTy).Contents (Elt F)),
    nullary main_c (constantI S_ 32 0#32),
    unary main_c main_v12 (broadcastInDim S4194304 ![] bcast_S_S4194304 : (⟨S_, .i32⟩ : BufTy).Contents (Elt F) → (⟨S4194304, .i32⟩ : BufTy).Contents (Elt F)),
    binary main_arg1 main_v12 main_v13 (cmpi .slt : (⟨S4194304, .i32⟩ : BufTy).Contents (Elt F) → (⟨S4194304, .i32⟩ : BufTy).Contents (Elt F) → (⟨S4194304, .i1⟩ : BufTy).Contents (Elt F)),
    nullary main_c_5 (constantI S_ 32 5#32),
    unary main_c_5 main_v14 (broadcastInDim S4194304 ![] bcast_S_S4194304 : (⟨S_, .i32⟩ : BufTy).Contents (Elt F) → (⟨S4194304, .i32⟩ : BufTy).Contents (Elt F)),
    binary main_arg1 main_v14 main_v15 (addi : (⟨S4194304, .i32⟩ : BufTy).Contents (Elt F) → (⟨S4194304, .i32⟩ : BufTy).Contents (Elt F) → (⟨S4194304, .i32⟩ : BufTy).Contents (Elt F)),
    ternary main_v13 main_v15 main_arg1 main_v16 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v16 main_v17 (broadcastInDim S4194304x1 ![0] bcast_S4194304_S4194304x1_0 : (⟨S4194304, .i32⟩ : BufTy).Contents (Elt F) → (⟨S4194304x1, .i32⟩ : BufTy).Contents (Elt F)),
    binary main_cst main_v17 main_v18 ((fun x i => Host.gather gather_S5x5_S4194304x1_S4194304x5_1_0_n_n_0_1_15 x i) : (⟨S5x5, .f32⟩ : BufTy).Contents (Elt F) → (⟨S4194304x1, .i32⟩ : BufTy).Contents (Elt F) → (⟨S4194304x5, .f32⟩ : BufTy).Contents (Elt F)),
    binary main_v11 main_v18 main_v19 (mulf : (⟨S4194304x5, .f32⟩ : BufTy).Contents (Elt F) → (⟨S4194304x5, .f32⟩ : BufTy).Contents (Elt F) → (⟨S4194304x5, .f32⟩ : BufTy).Contents (Elt F)),
    nullary main_cst_6 (constant S_ .f32 0x00000000#32),
    binary main_v19 main_cst_6 main_v20 ((fun x v => Host.reduceAdd x v reducesTo_S4194304x5_S4194304_d1 h_S_) : (⟨S4194304x5, .f32⟩ : BufTy).Contents (Elt F) → (⟨S_, .f32⟩ : BufTy).Contents (Elt F) → (⟨S4194304, .f32⟩ : BufTy).Contents (Elt F)),
    nullary main_cst_7 (constant S_ .f32 0x00000000#32),
    binary main_v20 main_cst_7 main_v21 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_8 (constant S_ .f32 0x4A800000#32),
    binary main_v21 main_cst_8 main_v22 (Host.divf : (⟨S_, .f32⟩ : BufTy).Contents (Elt F) → (⟨S_, .f32⟩ : BufTy).Contents (Elt F) → (⟨S_, .f32⟩ : BufTy).Contents (Elt F)),
    nullary main_cst_9 (constant S_ .f32 0x3DCCCCCD#32),
    binary main_cst_9 main_v22 main_v23 (mulf : (⟨S_, .f32⟩ : BufTy).Contents (Elt F) → (⟨S_, .f32⟩ : BufTy).Contents (Elt F) → (⟨S_, .f32⟩ : BufTy).Contents (Elt F)),
    binary main_v10 main_v23 main_v24 (addf : (⟨S_, .f32⟩ : BufTy).Contents (Elt F) → (⟨S_, .f32⟩ : BufTy).Contents (Elt F) → (⟨S_, .f32⟩ : BufTy).Contents (Elt F)) ]

-- fifty-six binds re-associated: the rewrite under the chain recurses once per statement
set_option maxRecDepth 2048 in
/-- The program is that straight line: the two functions' definitions unfolded at their calls, both sides are one
    chain of steps once sequencing is re-associated. -/
theorem main_eq (c : Dev nD) : main (F := F) c = seq ops := by
  simp only [main, fn_log_softmax.body, fn_one_hot.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., unary_bufs_sub .., nullary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., nullary_bufs_sub ..,
    binary_bufs_sub .., unary_bufs_sub .., nullary_bufs_sub .., binary_bufs_sub .., nullary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., nullary_bufs_sub .., binary_bufs_sub .., nullary_bufs_sub .., binary_bufs_sub .., nullary_bufs_sub ..,
    binary_bufs_sub .., binary_bufs_sub ..⟩

/-- Contents moved to a buffer's own type and back are the contents. -/
private theorem ofBuf_toBuf {T : BufTy} (x : TRef sig T) (v : T.Contents (Elt F)) : x.ofBuf (x.toBuf v) = v := by
  obtain ⟨r, h, h2, h3⟩ := x
  subst h
  rfl

/-- At the log-softmax's result buffer the move is the identity. -/
private theorem toBuf_v0 (h1 : main_v0.ty = ⟨S4194304x5, .f32⟩) (h2 h3) (v : (⟨S4194304x5, .f32⟩ : BufTy).Contents (Elt F)) :
    (TRef.of main_v0 h1 h2 h3).toBuf (Val := Elt F) v = v := rfl

/-- At the one-hot encoding's result buffer the move is the identity. -/
private theorem toBuf_v1 (h1 : main_v1.ty = ⟨S4194304x5, .f32⟩) (h2 h3) (v : (⟨S4194304x5, .f32⟩ : BufTy).Contents (Elt F)) :
    (TRef.of main_v1 h1 h2 h3).toBuf (Val := Elt F) v = v := rfl

/-- At the logits' buffer the move is the identity. -/
private theorem ofBuf_arg0 (h1 : main_arg0.ty = ⟨S4194304x5, .f32⟩) (h2 h3) (v : main_arg0.ty.Contents (Elt F)) :
    (TRef.of main_arg0 h1 h2 h3).ofBuf (Val := Elt F) v = v := rfl

/-- At the labels' buffer the move is the identity. -/
private theorem ofBuf_arg1 (h1 : main_arg1.ty = ⟨S4194304, .i32⟩) (h2 h3) (v : main_arg1.ty.Contents (Elt F)) :
    (TRef.of main_arg1 h1 h2 h3).ofBuf (Val := Elt F) v = v := rfl

attribute [local irreducible] Host.reduce Host.reduceAdd Host.gather in
set_option maxRecDepth 8192 in
/-- The fold of the operations at the result buffer is the composed term: each operation's result at its own buffer
    is its function's value and at any other buffer what was there; the reductions and the gather stay folded (the
    equation never looks inside them). -/
theorem out_eq (V : Valuation τ sig (Elt F)) :
    after ops V (main_v24 : DevRef τ sig)
      = Term.refOut (V (main_arg0 : DevRef τ sig)) (V (main_arg1 : DevRef τ sig)) := by
  after_results_simp
  simp only [ofBuf_toBuf]
  simp only [toBuf_v0, toBuf_v1, ofBuf_arg0, ofBuf_arg1]
  simp only [Term.refOut, Term.logSoftmax, Term.oneHot, Term.tableRows]
  rfl

/-- No operation writes the logits. -/
theorem arg0_eq (V : Valuation τ sig (Elt F)) :
    after ops V (main_arg0 : DevRef τ sig) = V (main_arg0 : DevRef τ sig) := by
  after_results_simp

/-- No operation writes the labels. -/
theorem arg1_eq (V : Valuation τ sig (Elt F)) :
    after ops V (main_arg1 : DevRef τ sig) = V (main_arg1 : DevRef τ sig) := by
  after_results_simp

/-- On every device, for any float values, from any memory with zero counters: every weakly fair execution terminates
    with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = Term.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Run

end
-- ==== Proof.RefValue.lean ====
/-
  The plain program's composed term, read at the extended reals, is `refLoss` of the logits and labels: row by row the
  log-softmax, the one-hot encoding and the gathered table row are the specification's, and the two reductions over
  the rows are sums over `Fin 4194304` — when every label names a class.
-/
import proofs.«420542_j25194278159144_2_alg».proof.Proof.RefTerm
import proofs.«420542_j25194278159144_2_alg».proof.Proof.Spec
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

open scoped BigOperators

noncomputable section

namespace Cert.ReferenceIdeal.Value

open Idealize.ShloMosaic Idealize.ShloMosaic.ValueIdx Cert.ReferenceIdeal Cert.ReferenceIdeal.Gen BloomLoss

/-! ## Words and shapes -/

/-- The word of minus infinity is the bottom of the extended reals. -/
private theorem ofBits_neg_inf : Ideal.ofBits .f32 0xFF800000#32 = ⊥ := by simp [Ideal.ofBits, Ideal.ieee]

/-- Dropping the class axis of the logits' shape leaves the rows' shape. -/
private theorem red1 : S4194304x5.Reduces [1] S4194304 := by decide

/-- Row `i` with class `k` put back on the dropped axis is the index (i, k). -/
private theorem lift1 (i : Fin 4194304) (k : Fin 5) : red1.lift (ix1 i) k = ix2 i k := by
  funext c
  match c with
  | ⟨0, _⟩ => exact Fin.ext rfl
  | ⟨1, _⟩ => exact Fin.ext rfl

/-! ## The broadcasts read at an index -/

section Bcast
variable {α : Type}

private theorem bc_row (v : S4194304.Idx → α) (i : Fin 4194304) (z : Fin 1) :
    broadcastInDim S4194304x1 ![0] bcast_S4194304_S4194304x1_0 v (ix2 i z) = v (ix1 i) :=
  broadcastInDim_apply _ _ v (ix2 i z) (ix1 i) fun a => by
    match a with
    | ⟨0, _⟩ => rfl

private theorem bc_col (v : S4194304x1.Idx → α) (i : Fin 4194304) (j : Fin 5) :
    broadcastInDim S4194304x5 ![0, 1] bcast_S4194304x1_S4194304x5_0_1 v (ix2 i j) = v (ix2 i 0) :=
  broadcastInDim_apply _ _ v (ix2 i j) (ix2 i 0) fun a => by
    match a with
    | ⟨0, _⟩ => rfl
    | ⟨1, _⟩ => rfl

private theorem bc_classes (v : S1x5.Idx → α) (i : Fin 4194304) (j : Fin 5) :
    broadcastInDim S4194304x5 ![0, 1] bcast_S1x5_S4194304x5_0_1 v (ix2 i j) = v (ix2 0 j) :=
  broadcastInDim_apply _ _ v (ix2 i j) (ix2 0 j) fun a => by
    match a with
    | ⟨0, _⟩ => rfl
    | ⟨1, _⟩ => rfl

end Bcast

/-! ## The row reductions -/

/-- A sum over the classes from the zero word is the sum of the row's five entries. -/
private theorem rowSum_apply (v : FVec Ideal S4194304x5 .f32) (h' : S4194304x5.ReducesTo [1] S4194304) (hu : 0 < S_.numel)
    (i : Fin 4194304) :
    Host.reduceAdd v (constant S_ .f32 0x00000000#32) h' hu (ix1 i) = ∑ k : Fin 5, v (ix2 i k) := by
  rw [hostReduceAdd_apply, Ideal.hostReduceAdd_single h' red1, constant_apply, Ideal.ofBits_zero_f32, zero_add]
  exact Finset.sum_congr rfl fun k _ => congrArg v (lift1 i k)

/-- The maximum over the classes from minus infinity is the row's maximum. -/
private theorem rowMax_apply (x : FVec Ideal S4194304x5 .f32) (h' : S4194304x5.ReducesTo [1] S4194304) (hu : 0 < S_.numel)
    (i : Fin 4194304) :
    Host.reduce FloatOps.maximumf x (constant (F := Ideal) S_ .f32 0xFF800000#32) h' hu (ix1 i) = rowMax (rowX x i) := by
  rw [Host.reduce_eq_fold_single FloatOps.maximumf x _ h' red1 hu (ix1 i), constant_apply, ofBits_neg_inf]
  have e : x ∘ red1.lift (ix1 i) = rowX x i := funext fun k => congrArg x (lift1 i k)
  rw [e]
  rfl

/-! ## The host's pointwise operations at an index -/

private theorem hostExp_apply {s : Shape} (v : FVec Ideal s .f32) (i : s.Idx) : Host.exp v i = Ideal.exp (v i) := rfl
private theorem hostLog_apply {s : Shape} (v : FVec Ideal s .f32) (i : s.Idx) : Host.log v i = Ideal.log (v i) := rfl
private theorem hostNegf_apply {s : Shape} (v : FVec Ideal s .f32) (i : s.Idx) : Host.negf v i = -(v i) := rfl

/-! ## The log-softmax -/

/-- The logits less their row's maximum, as the plain program forms them. -/
private def shv (x : FVec Ideal S4194304x5 .f32) : FVec Ideal S4194304x5 .f32 :=
  subf x (broadcastInDim S4194304x5 ![0, 1] bcast_S4194304x1_S4194304x5_0_1
    (broadcastInDim S4194304x1 ![0] bcast_S4194304_S4194304x1_0
      (maximumf (broadcastInDim S4194304 ![] bcast_S_S4194304 (constant S_ .f32 0xFF800000#32))
        (Host.reduce FloatOps.maximumf x (constant S_ .f32 0xFF800000#32) reducesTo_S4194304x5_S4194304_d1 h_S_))))

private theorem shv_apply (x : FVec Ideal S4194304x5 .f32) (i : Fin 4194304) (k : Fin 5) :
    shv x (ix2 i k) = shifted (rowX x i) k := by
  unfold shv
  rw [subf_apply, bc_col, bc_row, maximumf_apply, rowMax_apply, broadcastInDim_scalar_apply, constant_apply, ofBits_neg_inf,
    max_eq_right bot_le]
  rfl

private theorem logSoftmax_eq (x : FVec Ideal S4194304x5 .f32) :
    Term.logSoftmax (F := Ideal) x
      = subf (shv x) (broadcastInDim S4194304x5 ![0, 1] bcast_S4194304x1_S4194304x5_0_1
          (Host.log (broadcastInDim S4194304x1 ![0] bcast_S4194304_S4194304x1_0
            (Host.reduceAdd (Host.exp (shv x)) (constant S_ .f32 0x00000000#32) reducesTo_S4194304x5_S4194304_d1 h_S_)))) := rfl

/-- The plain program's log-softmax at row `i`, class `j`, is the specification's. -/
private theorem logSoftmax_apply (x : FVec Ideal S4194304x5 .f32) (i : Fin 4194304) (j : Fin 5) :
    Term.logSoftmax (F := Ideal) x (ix2 i j) = logp (rowX x i) j := by
  rw [logSoftmax_eq, subf_apply, shv_apply, bc_col, hostLog_apply, bc_row, rowSum_apply]
  unfold logp lse
  refine congrArg (fun s => shifted (rowX x i) j - Ideal.log s) (Finset.sum_congr rfl fun k _ => ?_)
  rw [hostExp_apply, shv_apply]

/-! ## The one-hot encoding -/

/-- The plain program's one-hot encoding at row `i`, class `j`, is the specification's. -/
private theorem oneHot_apply (t : IVec S4194304 32) (i : Fin 4194304) (j : Fin 5) :
    Term.oneHot (F := Ideal) t (ix2 i j) = hot (rowT t i) j := by
  show (((IntOp.cmpi .eq
      (broadcastInDim S4194304x5 ![0, 1] bcast_S4194304x1_S4194304x5_0_1
        (broadcastInDim S4194304x1 ![0] bcast_S4194304_S4194304x1_0 t) (ix2 i j))
      (broadcastInDim S4194304x5 ![0, 1] bcast_S1x5_S4194304x5_0_1 (iotaInDim S1x5 32 1) (ix2 i j))).toNat : ℝ) : EReal) = _
  rw [bc_col, bc_row, bc_classes, iotaInDim_apply]
  unfold hot rowT IntOp.cmpi
  by_cases h : t (ix1 i) = BitVec.ofNat 32 j.val
  · rw [if_pos h]; simp [h]
  · rw [if_neg h]; simp [h]

/-! ## The table's rows gathered at the labels -/

section Gather
variable {α : Type}

private abbrev G := gather_S5x5_S4194304x1_S4194304x5_1_0_n_n_0_1_15

/-- A start index read signed and clamped into the table's rows 0..4. -/
private def clampRow (b : BitVec 32) : Fin 5 := ⟨min b.toInt.toNat 4, by omega⟩

/-- The gather of the table's rows at (i, j): the table at (row i's start index, read signed and clamped; j). Axis 0 of
    the table is collapsed and named by the start index; axis 1 is the offset axis and takes the class `j`. -/
private theorem gather_row_apply (x : S5x5.Idx → α) (idx : IVec S4194304x1 32) (i : Fin 4194304) (j : Fin 5) :
    Host.gather G x idx (ix2 i j) = x (ix2 (clampRow (idx (ix2 i 0))) j) := by
  unfold Host.gather
  refine congrArg x (funext fun a => Fin.ext ?_)
  match a with
  | ⟨0, _⟩ =>
    show G.start (ix2 i j) idx 0 + G.batchCoord (ix2 i j) 0 + G.offCoord (ix2 i j) 0 = min (idx (ix2 i 0)).toInt.toNat 4
    rw [G.batchCoord_eq_zero _ _ List.not_mem_nil,
      G.offCoord_eq_zero _ _ (fun h => ((G.mem_sKept 0).mp h).1 (List.mem_singleton.mpr rfl))]
    unfold GatherDims.start
    rw [dif_pos (show (0 : Fin 2) ∈ G.startIndexMap from List.mem_singleton.mpr rfl)]
    have hsi : G.siIdx (ix2 i j) ⟨List.idxOf (0 : Fin 2) G.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show G.start (ix2 i j) idx 1 + G.batchCoord (ix2 i j) 1 + G.offCoord (ix2 i j) 1 = j.val
    rw [G.batchCoord_eq_zero _ _ List.not_mem_nil]
    have hs : G.start (ix2 i j) idx 1 = 0 := by
      unfold GatherDims.start
      rw [dif_neg (show ¬ (1 : Fin 2) ∈ G.startIndexMap from by decide)]
    have ho : G.offCoord (ix2 i j) 1 = j.val := by
      unfold GatherDims.offCoord
      rw [dif_pos (show (1 : Fin 2) ∈ G.sKept from by decide)]
      rfl
    rw [hs, ho]
    omega

end Gather

/-- A label that names a class is not negative as a signed word, so the wrap-around of negative labels leaves it, and the
    clamp into 0..4 leaves it too. -/
private theorem label_word (b : BitVec 32) (h : b.toNat < 5) :
    Scalar.select (IntOp.cmpi .slt b 0#32) (IntOp.addi b 5#32) b = b ∧ (clampRow b).val = b.toNat := by
  have hb : b = BitVec.ofNat 32 b.toNat := BitVec.eq_of_toNat_eq (by rw [BitVec.toNat_ofNat]; omega)
  generalize b.toNat = n at h hb
  subst hb
  interval_cases n <;> decide

/-- The program's table literal is the specification's table of words. -/
private theorem lit0_eq : ∀ k : Fin 25, lit0 k = tblBits k.val := by decide

/-- The plain program's gathered table row at row `i`, class `j`, is the specification's table at (label, j). -/
private theorem tableRows_apply (t : IVec S4194304 32) (i : Fin 4194304) (j : Fin 5) (h : (t (ix1 i)).toNat < 5) :
    Term.tableRows (F := Ideal) t (ix2 i j) = tbl (rowT t i).toNat j.val := by
  show Host.gather G (fun q : S5x5.Idx => FloatOps.ofBits (F := Ideal) .f32 (lit0 (S5x5.rowMajor q)))
      (broadcastInDim S4194304x1 ![0] bcast_S4194304_S4194304x1_0
        (select (cmpi .slt t (broadcastInDim S4194304 ![] bcast_S_S4194304 (constantI S_ 32 0#32)))
          (addi t (broadcastInDim S4194304 ![] bcast_S_S4194304 (constantI S_ 32 5#32))) t)) (ix2 i j) = _
  rw [gather_row_apply, bc_row, select_apply]
  have hsel : Scalar.select (cmpi .slt t (broadcastInDim S4194304 ![] bcast_S_S4194304 (constantI S_ 32 0#32)) (ix1 i))
      (addi t (broadcastInDim S4194304 ![] bcast_S_S4194304 (constantI S_ 32 5#32)) (ix1 i)) (t (ix1 i)) = t (ix1 i) :=
    (label_word (t (ix1 i)) h).1
  rw [hsel]
  show Ideal.ofBits .f32 (lit0 (S5x5.rowMajor (ix2 (clampRow (t (ix1 i))) j)))
    = Ideal.ofBits .f32 (tblBits (5 * (t (ix1 i)).toNat + j.val))
  refine (congrArg (Ideal.ofBits .f32) (lit0_eq (S5x5.rowMajor (ix2 (clampRow (t (ix1 i))) j)))).trans ?_
  refine congrArg (fun n => Ideal.ofBits .f32 (tblBits n)) ?_
  refine (Shape.rowMajor_val_two (ix2 (clampRow (t (ix1 i))) j)).trans ?_
  show (clampRow (t (ix1 i))).val * 5 + j.val = 5 * (t (ix1 i)).toNat + j.val
  rw [(label_word (t (ix1 i)) h).2]
  omega

/-! ## The two means -/

/-- A rows' index is its one coordinate. -/
private def rowEquiv : S4194304.Idx ≃ Fin 4194304 where
  toFun i := i 0
  invFun k := ix1 k
  left_inv i := (eq_ix1 i).symm
  right_inv _ := rfl

/-- A sum over the rows from the zero word is zero plus the sum over the rows. -/
private theorem totalSum_apply (v : FVec Ideal S4194304 .f32) (h' : S4194304.ReducesTo [0] S_) (hu : 0 < S_.numel)
    (q : S_.Idx) :
    Host.reduceAdd v (constant S_ .f32 0x00000000#32) h' hu q = 0 + ∑ i : Fin 4194304, v (ix1 i) := by
  rw [hostReduceAdd_apply, Ideal.hostReduceAdd_total h' (fun b => b.elim0), constant_apply, Ideal.ofBits_zero_f32]
  exact congrArg (fun s => (0 : EReal) + s)
    (Fintype.sum_equiv rowEquiv v (fun k => v (ix1 k)) fun i => congrArg v (eq_ix1 i))

/-- The rows' cross entropies as the plain program forms them: minus the sum over the classes of the smoothed target
    times the log-softmax. -/
private def ceVec (x : FVec Ideal S4194304x5 .f32) (t : IVec S4194304 32) : FVec Ideal S4194304 .f32 :=
  Host.negf (Host.reduceAdd
    (mulf (addf (mulf (Term.oneHot t) (broadcastInDim S4194304x5 ![] bcast_S_S4194304x5 (constant S_ .f32 0x3F600000#32)))
        (broadcastInDim S4194304x5 ![] bcast_S_S4194304x5 (constant S_ .f32 0x3CCCCCCD#32))) (Term.logSoftmax x))
    (constant S_ .f32 0x00000000#32) reducesTo_S4194304x5_S4194304_d1 h_S_)

/-- The rows' transition penalties as the plain program forms them: the softmax against the gathered table row. -/
private def penVec (x : FVec Ideal S4194304x5 .f32) (t : IVec S4194304 32) : FVec Ideal S4194304 .f32 :=
  Host.reduceAdd (mulf (Host.exp (Term.logSoftmax x)) (Term.tableRows t)) (constant S_ .f32 0x00000000#32)
    reducesTo_S4194304x5_S4194304_d1 h_S_

private theorem ceVec_apply (x : FVec Ideal S4194304x5 .f32) (t : IVec S4194304 32) (i : Fin 4194304) :
    ceVec x t (ix1 i) = -(ceSum (rowX x i) (rowT t i)) := by
  unfold ceVec
  rw [hostNegf_apply, rowSum_apply]
  unfold ceSum
  refine congrArg Neg.neg (Finset.sum_congr rfl fun j _ => ?_)
  rw [mulf_apply, addf_apply, mulf_apply, oneHot_apply, logSoftmax_apply]
  rfl

private theorem penVec_apply (x : FVec Ideal S4194304x5 .f32) (t : IVec S4194304 32) (i : Fin 4194304)
    (h : (t (ix1 i)).toNat < 5) : penVec x t (ix1 i) = penSum (rowX x i) (rowT t i) := by
  unfold penVec
  rw [rowSum_apply]
  unfold penSum
  refine Finset.sum_congr rfl fun j _ => ?_
  rw [mulf_apply, hostExp_apply, logSoftmax_apply, tableRows_apply t i j h]

/-- The plain program's result: the two row vectors summed over the rows, each total over the row count, the penalty's
    quotient weighted. -/
private theorem refOut_split (x : FVec Ideal S4194304x5 .f32) (t : IVec S4194304 32) :
    Term.refOut (F := Ideal) x t
      = addf (Host.divf (Host.reduceAdd (ceVec x t) (constant S_ .f32 0x00000000#32) reducesTo_S4194304_S_d0 h_S_)
            (constant S_ .f32 0x4A800000#32))
          (mulf (constant S_ .f32 0x3DCCCCCD#32)
            (Host.divf (Host.reduceAdd (penVec x t) (constant S_ .f32 0x00000000#32) reducesTo_S4194304_S_d0 h_S_)
              (constant S_ .f32 0x4A800000#32))) := rfl

theorem refOut_eq (x : FVec Ideal S4194304x5 .f32) (t : IVec S4194304 32)
    (hL : ∀ i : Fin 4194304, (t (ix1 i)).toNat < 5) :
    Term.refOut (F := Ideal) x t = fun _ => refLoss x t := by
  funext q
  rw [refOut_split, addf_apply, mulf_apply, hostDivf_apply, hostDivf_apply, totalSum_apply, totalSum_apply]
  simp only [constant_apply]
  have e1 : ∑ i : Fin 4194304, ceVec x t (ix1 i) = ∑ i : Fin 4194304, -(ceSum (rowX x i) (rowT t i)) :=
    Finset.sum_congr rfl fun i _ => ceVec_apply x t i
  have e2 : ∑ i : Fin 4194304, penVec x t (ix1 i) = ∑ i : Fin 4194304, penSum (rowX x i) (rowT t i) :=
    Finset.sum_congr rfl fun i _ => penVec_apply x t i (hL i)
  rw [e1, e2]
  rfl

end Cert.ReferenceIdeal.Value

end
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.PreDecode.lean ====
/-
  What the precondition says of the arguments: every logit is a real number, and every label names one of the five
  classes.
-/
import proofs.«420542_j25194278159144_2_alg».proof.Proof.Gen.Pre_finite_inputs
import proofs.«420542_j25194278159144_2_alg».proof.Proof.LibRealClosure
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.Pre_finite_inputs.Gen RealClosure

/-- The scalar shape has one index. -/
private instance subsingleton_scalar_idx : Subsingleton S_.Idx := ⟨fun a b => funext fun d => d.elim0⟩

/-- A word that reads, signed, in [0, 5) is below 5 unsigned. -/
private theorem toNat_lt_five {w : BitVec 32} (h0 : (0#32 : BitVec 32).toInt ≤ w.toInt) (h5 : w.toInt < (5#32 : BitVec 32).toInt) :
    w.toNat < 5 := by
  have e0 : (0#32 : BitVec 32).toInt = 0 := by decide
  have e5 : (5#32 : BitVec 32).toInt = 5 := by decide
  rw [e0] at h0
  rw [e5] at h5
  have hw := w.isLt
  rw [BitVec.toInt_eq_toNat_cond] at h0 h5
  split_ifs at h0 h5 <;> omega

/-- An extended real whose absolute value max(a, −a) is below +∞ is a real number. -/
private theorem isReal_of_abs_lt_top {a : EReal} (h : max a (-a) < ⊤) : IsReal a := by
  have h1 : a < ⊤ := lt_of_le_of_lt (le_max_left _ _) h
  have h2 : -a < ⊤ := lt_of_le_of_lt (le_max_right _ _) h
  refine isReal_of_ne ?_ (ne_of_lt h1)
  intro hb
  rw [hb, EReal.neg_bot] at h2
  exact lt_irrefl _ h2

theorem of_pre (x : FVec Ideal S4194304x5 .f32) (t : IVec S4194304 32)
    (h : Cert.Pre_finite_inputs.fn (F := Ideal) x t = fun _ => 1#1) :
    (∀ i, IsReal (x i)) ∧ (∀ i : Fin 4194304, (t (ix1 i)).toNat < 5) := by
  -- the predicate's one entry is the conjunction of the two "all" reductions
  have h0 := congrFun h ix0
  dsimp only [Cert.Pre_finite_inputs.fn] at h0
  obtain ⟨h3, h9⟩ := IntOp.andi_eq_one.1 h0
  constructor
  · -- every |x i| compares below +∞
    intro i
    have e := Host.reduce_andi_all _ _ _ _ _ h3 i
    have e' : Ideal.cmp .olt (max (x i) (-(x i))) (Ideal.ofBits .f32 0x7F800000#32) = 1#1 := e
    rw [ofBits_pos_inf_f32] at e'
    simp only [Ideal.cmp, StableHlo.Predicate.ofBool_eq_one_iff, decide_eq_true_eq] at e'
    exact isReal_of_abs_lt_top e'
  · -- every label compares, signed, at least 0 and below 5
    intro i
    have e := Host.reduce_andi_all _ _ _ _ _ h9 (ix1 i)
    obtain ⟨e5, e7⟩ := IntOp.andi_eq_one.1 e
    exact toNat_lt_five (IntOp.cmpi_sge.1 e5) (IntOp.cmpi_slt.1 e7)

end Cert.Pre_finite_inputs.Decode

end
-- ==== Proof.Bridge.lean ====
/-
  The two totals are one number. With every logit real, every row's cross entropy and penalty are real (the row's
  sum of exponentials is positive, so its logarithm is real), and over the reals the sum of `ce + p · pen` taken tile
  by tile and half by half, over the row count, is the mean of `ce` plus `p` times the mean of `pen`.
-/
import proofs.«420542_j25194278159144_2_alg».proof.Proof.Spec
import proofs.«420542_j25194278159144_2_alg».proof.Proof.LibRealClosure
import Mathlib.Algebra.BigOperators.Fin
import Mathlib.Algebra.BigOperators.Intervals
import Mathlib.Tactic.Ring
import Mathlib.Tactic.NormNum

open scoped BigOperators

noncomputable section

namespace BloomLoss

open Idealize.ShloMosaic Idealize.ShloMosaic.ValueIdx RealClosure

/-! ## Re-indexing: tiles of halves of rows are the rows -/

/-- A sum over `a < A` and `b < B` of a function of `a · B + b` is the sum over `i < A · B`. -/
theorem sum_range_mul {M : Type*} [AddCommMonoid M] (f : ℕ → M) (B : ℕ) :
    ∀ A : ℕ, ∑ a ∈ Finset.range A, ∑ b ∈ Finset.range B, f (a * B + b) = ∑ i ∈ Finset.range (A * B), f i
  | 0 => by simp
  | A + 1 => by
    rw [Finset.sum_range_succ, sum_range_mul f B A, Nat.succ_mul, Finset.sum_range_add]

/-- The loss of row `n`, rows counted by natural numbers. -/
def lossAt (X : SX.Idx → EReal) (Tg : ST.Idx → BitVec 32) (n : ℕ) : EReal := rowLoss (rowXn X n) (rowTn Tg n)

theorem lossAt_val (X : SX.Idx → EReal) (Tg : ST.Idx → BitVec 32) (i : Fin 4194304) :
    lossAt X Tg i.val = rowLoss (rowX X i) (rowT Tg i) := by
  unfold lossAt; rw [rowXn_val, rowTn_val]

/-- The two halves' sums together are the sum of all the rows' losses. -/
theorem halves_sum (X : SX.Idx → EReal) (Tg : ST.Idx → BitVec 32) :
    ∑ q : Fin 2, halfSum X Tg q.val = ∑ i : Fin 4194304, rowLoss (rowX X i) (rowT Tg i) := by
  have htile : ∀ n, tileSum X Tg n = ∑ l ∈ Finset.range 32768, lossAt X Tg (n * 32768 + l) := fun n =>
    Fin.sum_univ_eq_sum_range (fun l => lossAt X Tg (n * 32768 + l)) 32768
  have hhalf : ∀ q, halfSum X Tg q = ∑ j ∈ Finset.range (64 * 32768), lossAt X Tg (q * (64 * 32768) + j) := fun q => by
    unfold halfSum
    rw [zero_add, ← sum_range_mul (fun j => lossAt X Tg (q * (64 * 32768) + j)) 32768 64]
    refine Finset.sum_congr rfl fun s _ => ?_
    rw [htile]
    refine Finset.sum_congr rfl fun l _ => ?_
    exact congrArg (lossAt X Tg) (by ring)
  rw [Fin.sum_univ_eq_sum_range (fun q => halfSum X Tg q) 2]
  simp only [hhalf]
  rw [sum_range_mul (fun i => lossAt X Tg i) (64 * 32768) 2, ← Fin.sum_univ_eq_sum_range (fun i => lossAt X Tg i)]
  exact Finset.sum_congr rfl fun i _ => lossAt_val X Tg i

/-! ## The constants are real numbers -/

/-- A single-precision pattern whose exponent field is not all ones denotes a real number. -/
theorem isReal_ofBits_f32 (w : BitVec 32) (h : (w.extractLsb' 23 8).toNat ≠ 2 ^ 8 - 1) : IsReal (Ideal.ofBits .f32 w) := by
  show IsReal (Ideal.ieee 8 23 w)
  unfold Ideal.ieee
  dsimp only
  rw [if_neg h]
  split_ifs <;> exact ⟨_, rfl⟩

theorem isReal_c875 : IsReal c875 := isReal_ofBits_f32 _ (by decide)
theorem isReal_c025 : IsReal c025 := isReal_ofBits_f32 _ (by decide)
theorem isReal_c01 : IsReal c01 := isReal_ofBits_f32 _ (by decide)

theorem isReal_tbl (a b : ℕ) : IsReal (tbl a b) := by
  unfold tbl
  refine isReal_ofBits_f32 _ ?_
  unfold tblBits
  split <;> decide

/-- The row count's pattern denotes 4194304. -/
theorem cB_eq : cB = ((4194304 : ℝ) : EReal) := by
  show Ideal.ieee 8 23 (0x4A800000#32 : BitVec 32) = _
  simp [Ideal.ieee, -EReal.coe_mul]
  norm_num

/-! ## A row's quantities are real numbers -/

theorem isReal_log_of_pos {v : EReal} (hv : IsReal v) (hp : 0 < v) : IsReal (Ideal.log v) := by
  obtain ⟨r, rfl⟩ := hv
  have hr : 0 < r := EReal.coe_pos.1 hp
  rw [Ideal.log_coe, if_neg (not_le.2 hr)]
  exact ⟨_, rfl⟩

section RowReal
variable {x : Fin 5 → EReal} (hx : ∀ j, IsReal (x j)) (t : BitVec 32)
include hx

theorem isReal_rowMax : IsReal (rowMax x) := by
  unfold rowMax
  refine isReal_of_ne ?_ ?_
  · exact ((Finset.lt_fold_max _).2 (Or.inr ⟨0, Finset.mem_univ _, bot_lt_iff_ne_bot.2 (hx 0).ne_bot⟩)).ne'
  · exact ((Finset.fold_max_lt _).2 ⟨bot_lt_top, fun i _ => lt_top_iff_ne_top.2 (hx i).ne_top⟩).ne

theorem isReal_shifted (j : Fin 5) : IsReal (shifted x j) := (hx j).sub (isReal_rowMax hx)

theorem isReal_lse : IsReal (lse x) := by
  unfold lse
  refine isReal_log_of_pos (isReal_sum_univ _ fun k => isReal_exp (isReal_shifted hx k)) ?_
  exact sum_pos_of_isReal _ _ (fun k _ => isReal_exp (isReal_shifted hx k)) (fun k _ => exp_pos (isReal_shifted hx k))
    ⟨0, Finset.mem_univ _⟩

theorem isReal_logp (j : Fin 5) : IsReal (logp x j) := (isReal_shifted hx j).sub (isReal_lse hx)

omit hx in
theorem isReal_hot (j : Fin 5) : IsReal (hot t j) := by
  unfold hot; split_ifs
  · exact isReal_one
  · exact isReal_zero

theorem isReal_ceSum : IsReal (ceSum x t) :=
  isReal_sum_univ _ fun j => (((isReal_hot t j).mul isReal_c875).add isReal_c025).mul (isReal_logp hx j)

theorem isReal_penSum : IsReal (penSum x t) :=
  isReal_sum_univ _ fun j => (isReal_exp (isReal_logp hx j)).mul (isReal_tbl _ _)

end RowReal

/-! ## The two totals -/

theorem kernLoss_eq_refLoss (X : SX.Idx → EReal) (Tg : ST.Idx → BitVec 32) (hX : ∀ i, IsReal (X i)) :
    kernLoss X Tg = refLoss X Tg := by
  have hrow : ∀ (i : Fin 4194304) (j : Fin 5), IsReal (rowX X i j) := fun i j => hX _
  obtain ⟨a, ha⟩ := exists_real_fun (fun i : Fin 4194304 => isReal_ceSum (hrow i) (rowT Tg i))
  obtain ⟨p, hp⟩ := exists_real_fun (fun i : Fin 4194304 => isReal_penSum (hrow i) (rowT Tg i))
  obtain ⟨k, hk⟩ := isReal_c01
  have hA : ∀ i : Fin 4194304, ceSum (rowX X i) (rowT Tg i) = (a i : EReal) := fun i => congrFun ha i
  have hP : ∀ i : Fin 4194304, penSum (rowX X i) (rowT Tg i) = (p i : EReal) := fun i => congrFun hp i
  have hb : (4194304 : ℝ) ≠ 0 := by norm_num
  unfold kernLoss refLoss
  rw [halves_sum]
  unfold rowLoss
  simp only [hA, hP, hk, cB_eq, zero_add, zero_sub, ← EReal.coe_neg, ← EReal.coe_mul, ← EReal.coe_add, ← coe_finset_sum,
    div_coe_coe _ hb]
  refine congrArg _ ?_
  rw [Finset.sum_add_distrib, ← Finset.mul_sum]
  ring

end BloomLoss

end
-- ==== Proof.lean ====
/-
  A label-smoothed cross entropy with a transition penalty, averaged over 4194304 rows of five logits: the tiled
  program (two halves of 64 tiles of 32768 rows, a running cell per half, the halves' sums added and divided by the row
  count) against the plain one (the mean cross entropy plus a tenth of the mean penalty). Under the precondition —
  every logit finite, every label one of the five classes — both end with the same extended real: row by row the two
  compute the same cross entropy and the same penalty (the tiled program's product of the table with the one-hot
  column is the table's row at the label, the table being symmetric), every such number is real, and over the reals
  the tiled total over the row count is the plain combination of the two means.
-/
import proofs.«420542_j25194278159144_2_alg».proof.Defs
import proofs.«420542_j25194278159144_2_alg».proof.Proof.Gen.Kernel
import proofs.«420542_j25194278159144_2_alg».proof.Proof.Gen.Kernel.Frame
import proofs.«420542_j25194278159144_2_alg».proof.Proof.Gen.KernelIdeal
import proofs.«420542_j25194278159144_2_alg».proof.Proof.Gen.KernelIdeal.Frame
import proofs.«420542_j25194278159144_2_alg».proof.Proof.Gen.ReferenceIdeal
import proofs.«420542_j25194278159144_2_alg».proof.Proof.Gen.Pre_finite_inputs
import proofs.«420542_j25194278159144_2_alg».proof.Proof.KRun
import proofs.«420542_j25194278159144_2_alg».proof.Proof.RefRun
import proofs.«420542_j25194278159144_2_alg».proof.Proof.RefValue
import proofs.«420542_j25194278159144_2_alg».proof.Proof.PreDecode
import proofs.«420542_j25194278159144_2_alg».proof.Proof.Bridge
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

/-- Both programs end at the same number: the tiled total (the tiled program's run), equal to the plain combination
    (the algebra), which is what the plain program's composed term is at the same logits and labels. -/
theorem algebraic : Cert.algebraic_KernelIdeal_ReferenceIdeal := by
  intro m ρ m' ρ' hpre hagree
  have hdec : ∀ c : Dev Cert.KernelIdeal.nD, _ := fun c => Cert.Pre_finite_inputs.Decode.of_pre _ _ (hpre c)
  refine ⟨fun c => fun _ => BloomLoss.kernLoss (Cert.KernelIdeal.Blocks.logits m c) (Cert.KernelIdeal.Blocks.labels m c),
    Cert.KernelIdeal.Value.run m ρ (fun c i => (hdec c).2 i), ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2, Cert.ReferenceIdeal.Value.refOut_eq _ _ (fun i => (hdec c).2 i)]
  funext _
  exact (BloomLoss.kernLoss_eq_refLoss _ _ (hdec c).1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
